-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S1x1 : Shape := ⟨2, ![1, 1]⟩
abbrev S_ : Shape := ⟨0, ![]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1, .f32⟩
  | .local _ .vmem, ⟨9, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v106 : BitVec 1 := Scalar.cmpi .eq arg0 c7_i32
  let arg1 : BitVec 32 := BitVec.ofNat 32 (i 1).val
  let c7_i32_38 : BitVec 32 := 7#32
  let v107 : BitVec 1 := Scalar.cmpi .eq arg1 c7_i32_38
  let v108 : BitVec 1 := Scalar.andi v106 v107
  let v109 : BitVec 32 := Scalar.extui v108
  let c0_i32_39 : BitVec 32 := 0#32
  let v110 : BitVec 1 := Scalar.cmpi .ne v109 c0_i32_39
  v110

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  bitsLt_bf16_f32 : FTy.bits .bf16 < FTy.bits .f32
  transposes_S512x512_p1_0_S512x512 : S512x512.Transposes [1, 0] S512x512
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  reduces_S512x1_S1 : S512x1.Reduces [0] S1
  shapeCasts_S1_S1x1 : S1.ShapeCasts S1x1
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .f32 = 32 ∨ (Rect.block (s := S4096x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S512x4096 : Shape := ⟨2, ![512, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 100
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x4096, .f32⟩
  | .hbm, ⟨3, _⟩ => ⟨S4096x4096, .f32⟩
  | .hbm, ⟨4, _⟩ => ⟨S4096x4096, .i32⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x512, .f32⟩
  | .hbm, ⟨18, _⟩ => ⟨S_, .f32⟩
  | .hbm, ⟨19, _⟩ => ⟨S4096, .f32⟩
  | .hbm, ⟨20, _⟩ => ⟨S4096x512, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S512x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x512, .f32⟩
  | .hbm, ⟨40, _⟩ => ⟨S_, .f32⟩
  | .hbm, ⟨41, _⟩ => ⟨S4096, .f32⟩
  | .hbm, ⟨42, _⟩ => ⟨S4096x512, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S512x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x512, .f32⟩
  | .hbm, ⟨62, _⟩ => ⟨S_, .f32⟩
  | .hbm, ⟨63, _⟩ => ⟨S4096, .f32⟩
  | .hbm, ⟨64, _⟩ => ⟨S4096x512, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S1x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S512x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_cst_17 : Ref sig .tc := ⟨.hbm, 91, rfl⟩
abbrev main_v70 : Ref sig .tc := ⟨.hbm, 92, rfl⟩
abbrev main_v71 : Ref sig .tc := ⟨.hbm, 93, rfl⟩
abbrev main_cst_18 : Ref sig .tc := ⟨.hbm, 94, rfl⟩
abbrev main_v72 : Ref sig .tc := ⟨.hbm, 95, rfl⟩
abbrev main_cst_19 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  reducesTo_S4096x512_S4096_d1 : S4096x512.ReducesTo [1] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.FrameK.Shared.lean ====
/-
  What the runs of the kernel body and the launch share: the contents of the arrays when the
  region is entered, each window's block at a grid point, the two branch conditions of the body in
  closed form over the 64 grid points (the accumulator is reset at point 0 and written out at
  point 63), where the output window is idle, and the staging and scratch memrefs by name.
-/
import proofs.«104481_j69131793596443_1_alg».proof.Proof.Gen.Kernel.Launch
import proofs.«104481_j69131793596443_1_alg».proof.Proof.Gen.Kernel.Skeleton
import proofs.«104481_j69131793596443_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers' contents when the region is entered: no host operation comes before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the region continued by the reshape of its 1 x 1 result, the constant 2^24 and the quotient. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [] [hostOps1, hostOps1_1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a
    window not fetched at a point has not moved, and the body leaves every input block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The first branch (the accumulator is zeroed): both grid coordinates are 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at grid point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second branch (the accumulator is copied to the output block): both grid coordinates are 7. -/
abbrev cond0_1 (i : grid0.Coords) : Prop := k0_cond2 i = 1#1
/-- It holds at grid point 63 only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the body stores nothing into the output block, -/
theorem idleAt0_4 : ∀ t : Fin cfg0.N, ¬cond0_1 (grid0.coords t) → cfg0.idle 4 (grid0.coords t) = true := by decide +kernel
/-- and the pipeline does not write it back there. -/
theorem noFlush0_4 : ∀ t : Fin cfg0.N, ¬cond0_1 (grid0.coords t) → (cfg0.win 4).flush t = false := by decide +kernel
/-- At the last point the body stores into it. -/
theorem liveAt0_4 : ∀ t : Fin cfg0.N, cond0_1 (grid0.coords t) → cfg0.idle 4 (grid0.coords t) = false := by decide +kernel

/-! ## The memrefs the body is called with -/

/-- The output window's one staging buffer as a view, through which its contents are stated. -/
abbrev VO0_4 : View sig .tc .vmem S1x1 .f32 := (Memref.whole cc0_stg4_0 : Memref sig .tc .vmem S1x1 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The 1 x 1 accumulator: a scoped buffer of the kernel's own, carried from point to point. -/
abbrev scM0_0 : Memref sig .tc .vmem S1x1 .f32 := Memref.whole cc0_scratch0
abbrev VS0_0 : View sig .tc .vmem S1x1 .f32 := scM0_0.view

/-- What the region hands the body besides the windows: the accumulator at some contents and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## One grid point's arithmetic -/

/-- The accumulator after a grid point, from the four input blocks there and the accumulator before:
    the tile's four sums combined and added on. -/
def step (i : grid0.Coords) (x0 x1 x2 x3 : Vec F S512x512 .f32) (acc : Vec F S1x1 .f32) : Vec F S1x1 .f32 :=
  k0_pay1 (k0_pay11 (k0_pay3 x0) (k0_pay5 x3) (k0_pay9 x0 x3))
    (k0_pay12 (BitVec.ofNat 32 (i 0).val) (BitVec.ofNat 32 (i 1).val) (k0_pay9 x0 x3))
    (k0_pay13 (k0_pay10 x0 x1)) (k0_pay14 (k0_pay4 x2) (k0_pay5 x3) (k0_pay8 x2 x3)) acc

end Cert.Kernel.Hand

end
-- ==== Proof.FrameK.RunA.lean ====
/-
  The kernel body at the first grid point (the accumulator is zeroed, then the tile's term added;
  the output block is not touched): its triple on any whole staging memrefs, the input blocks
  given, with the pieces the accumulator ends with.
-/
import proofs.«104481_j69131793596443_1_alg».proof.Proof.FrameK.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S512x512 .f32) :
    { LS0 : List (View.Piece (Elt F) S1x1 .f32) //
      ∀ (d4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ (∃ f, arg7.view.loc (c : Thread nD τ) ↦[arg7.view.set]{fullShare} arg7.view.writes (Elt F) f LS0)) -∗ K ⟨⟩))
          ⊢ wp frame (wpE (defs₀ (F := F)) Variants.none c none) E (cc0__combo_kernel i arg2 harg2 arg3 harg3 arg4 harg4 arg5 harg5 arg6 harg6 arg7 harg7) K } := by
  refine ⟨?_, fun d4 E K => ?run⟩
  case run =>
    simp only [cc0__combo_kernel_eq_skeleton]; unfold cc0__combo_kernel_skel
    simp only [k0_part1_eq_skeleton, k0_part2_eq_skeleton]
    unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    iexists _; iexact HS0

end Cert.Kernel.Hand

end
-- ==== Proof.FrameK.RunB.lean ====
/-
  The kernel body at a grid point that is neither the first nor the last (the tile's term is added
  to the accumulator; the output block is not touched): its triple on any whole staging memrefs,
  the input blocks and the accumulator's contents given, with the piece the accumulator ends with.
-/
import proofs.«104481_j69131793596443_1_alg».proof.Proof.FrameK.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S512x512 .f32) (xs0 : Vec F S1x1 .f32) :
    { LS0 : List (View.Piece (Elt F) S1x1 .f32) //
      ∀ (d4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ (∃ f, arg7.view.loc (c : Thread nD τ) ↦[arg7.view.set]{fullShare} arg7.view.writes (Elt F) f LS0)) -∗ K ⟨⟩))
          ⊢ wp frame (wpE (defs₀ (F := F)) Variants.none c none) E (cc0__combo_kernel i arg2 harg2 arg3 harg3 arg4 harg4 arg5 harg5 arg6 harg6 arg7 harg7) K } := by
  refine ⟨?_, fun d4 E K => ?run⟩
  case run =>
    simp only [cc0__combo_kernel_eq_skeleton]; unfold cc0__combo_kernel_skel
    simp only [k0_part1_eq_skeleton, k0_part2_eq_skeleton]
    unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    iexists _; iexact HS0

end Cert.Kernel.Hand

end
-- ==== Proof.FrameK.RunC.lean ====
/-
  The kernel body at the last grid point (the tile's term is added to the accumulator, and the
  accumulator is then copied into the output block): its triple on any whole staging memrefs, the
  input blocks and the accumulator's contents given, with the pieces the output block and the
  accumulator end with.
-/
import proofs.«104481_j69131793596443_1_alg».proof.Proof.FrameK.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__combo_kernel i arg2 harg2 arg3 harg3 arg4 harg4 arg5 harg5 arg6 harg6 arg7 harg7) K } := by
  refine ⟨?_, ?_, fun E K => ?run⟩
  case run =>
    simp only [cc0__combo_kernel_eq_skeleton]; unfold cc0__combo_kernel_skel
    simp only [k0_part1_eq_skeleton, k0_part2_eq_skeleton]
    unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.FrameK.Pieces.lean ====
/-
  What each case of the body leaves behind, read back from the pieces its run found: the
  accumulator after the first point, after a middle point and after the last point, and the output
  block after the last point. Each list of pieces covers its 1 x 1 buffer, so what is read back does
  not depend on what the buffer held before.
-/
import proofs.«104481_j69131793596443_1_alg».proof.Proof.FrameK.RunA
import proofs.«104481_j69131793596443_1_alg».proof.Proof.FrameK.RunB
import proofs.«104481_j69131793596443_1_alg».proof.Proof.FrameK.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator's pieces at the first point cover it. -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S512x512 .f32) (y : S1x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1x1.size (by sl_kernel_rfl) y

/-- What the first point leaves in the accumulator. -/
def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S512x512 .f32) : Vec F S1x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

/-- The accumulator's piece at a middle point covers it. -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S512x512 .f32) (xs0 : Vec F S1x1 .f32) (y : S1x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1x1.size (by sl_kernel_rfl) y

/-- What a middle point leaves in the accumulator. -/
def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S512x512 .f32) (xs0 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

/-- The output block's piece at the last point covers it. -/
theorem cover0_C_4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1.size (by sl_kernel_rfl) y

/-- What the last point leaves in the output block. -/
def out0_C_4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) : Vec F S1x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The accumulator's piece at the last point covers it. -/
theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1x1.size (by sl_kernel_rfl) y

/-- What the last point leaves in the accumulator. -/
def sout0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

end Cert.Kernel.Hand

end
-- ==== Proof.FrameK.Body.lean ====
/-
  The accumulator point by point, the proof data of the one pipeline, and the body obligation.

  After grid point 0 the accumulator holds the first tile's term added to zero; after every later
  point it holds that point's term added to what the point before left; at point 63 the same value
  is also stored into the 1 x 1 output block, which the pipeline then writes back. Between points the
  region's invariant keeps the accumulator at exactly that value. The two windows that read x hold
  the two halves of x's share, and likewise for y; the output array is held whole.
-/
import proofs.«104481_j69131793596443_1_alg».proof.Proof.FrameK.Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator after each grid point -/

/-- What the accumulator holds after the body at position n: at 0 the first case's contents, afterwards
    the middle (or, at 63, the last) case's over what position n - 1 left. -/
def accAt0 (c : Dev nD) : (n : ℕ) → n < cfg0.N → Vec F S1x1 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)
  | n + 1, hn =>
    if h1 : (n + 1) % 64 = 63 then
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (by have hN : n + 1 < 64 := lt_of_lt_of_eq hn (show cfg0.N = 64 from N_0); (try dsimp only); omega)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (accAt0 c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (by have hN : n + 1 < 64 := lt_of_lt_of_eq hn (show cfg0.N = 64 from N_0); (try dsimp only); omega)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (accAt0 c n (Nat.lt_of_succ_lt hn))

theorem accAt0_A (c : Dev nD) (t : Fin cfg0.N) (h0 : t.val % 64 = 0) (h1 : ¬t.val % 64 = 63) :
    accAt0 m c t.val t.isLt = sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t) := by
  obtain ⟨n, hn⟩ := t
  cases n with
  | zero => exact rfl
  | succ n => exact (by exfalso; have hN : n + 1 < 64 := lt_of_lt_of_eq hn (show cfg0.N = 64 from N_0); (try dsimp only at h0); omega)

theorem accAt0_B (c : Dev nD) (t : Fin cfg0.N) (h0 : ¬t.val % 64 = 0) (h1 : ¬t.val % 64 = 63) :
    accAt0 m c t.val t.isLt = sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt0_C (c : Dev nD) (t : Fin cfg0.N) (h0 : ¬t.val % 64 = 0) (h1 : t.val % 64 = 63) :
    accAt0 m c t.val t.isLt = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-- What the output block's staging buffer holds after the body at point t: at the last point the
    accumulator's value stored into it; elsewhere the body does not touch it (the value given here is
    then consulted by nothing). -/
def outAt0 (c : Dev nD) (t : Fin cfg0.N) : Vec F S1x1 .f32 :=
  if h1 : t.val % 64 = 63 then
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => absurd ((hcond0_0 t).mp h) (by omega)) ((hcond0_1 t).mpr h1) (iblk m c 0 t) (iblk m c 1 t) (iblk m c 2 t) (iblk m c 3 t) (accAt0 m c (t.val - 1) (Nat.lt_of_le_of_lt (Nat.sub_le _ _) t.isLt))
  else accAt0 m c t.val t.isLt

theorem outAt0_C (c : Dev nD) (t : Fin cfg0.N) (h0 : ¬t.val % 64 = 0) (h1 : t.val % 64 = 63) :
    outAt0 m c t = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt0 m c (t.val - 1) (Nat.lt_of_le_of_lt (Nat.sub_le _ _) t.isLt)) :=
  dif_pos h1

/-! ## The invariant between points -/

/-- Before the first point the accumulator holds anything; before position n + 1 it holds what
    position n left. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare (accAt0 m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt0 m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt0 m c (n - 1) (by omega))) ∗ (∃ r, prngReg c r)) := by
  cases n with
  | zero => exact absurd rfl hz
  | succ n => rfl

/-! ## The pipeline's proof data -/

/-- The arrays as the region finds them; each input's buffer left at its block; the output block's at
    `outAt0`; the invariant `PhiS`; nothing owed; x's share split between windows 0 and 1, y's between
    windows 2 and 3. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt0 m c t
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the point's position says which
    case it is in; the invariant hands the body the accumulator at what the point before left (at
    anything at the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · have h1 : ¬t.val % 64 = 63 := by omega
    have hz : t.val = 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t (fun h => h1 ((hcond0_1 t).mp h))) (noFlush0_4 t (fun h => h1 ((hcond0_1 t).mp h)))]
    rw [accAt0_A m c t h0 h1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    by_cases h1 : t.val % 64 = 63
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outAt0_C m c t h0 h1, accAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [accAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the accumulator back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.FrameK.Launch.lean ====
/-
  The launch: from the body obligation to the run of @main.

  Windows 0 and 1 both read x and windows 2 and 3 both read y, so the five windows stand on three
  distinct buffers: x, y and the 1 x 1 result. Each shared buffer's full share is split into its two
  halves, one per window, for the duration of the region, and joined again at its exit; an input array
  is never written, so both halves still hold the entry contents. With the three buffers whole again,
  the three host operations after the region (the reshape of the result, the constant 2^24 and the
  quotient) run within the buffers the region does not stage.
-/
import proofs.«104481_j69131793596443_1_alg».proof.Proof.FrameK.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrPts withArrays unscopedRestP unscopedRest arrBufs tailRefs restRefs restRefsP ΦA
  scopedRest ownSems0 cells launchToks Prefetch PreFacts OwnSemFacts pin)

/-! ## One window per distinct buffer -/

/-- The three buffers behind the five windows: x, y and the 1 x 1 result. -/
abbrev win3 : Fin 3 → Pipeline.WinSpec sig grid0.rank := fun
  | 0 => spec0 0 | 1 => spec0 2 | 2 => spec0 4
  | ⟨_ + 3, h⟩ => absurd h (Nat.not_lt.2 (Nat.le_add_left _ _))

theorem win3_inj : Function.Injective (arrRef win3) := by decide
theorem image_win3 : Finset.univ.image (arrRef win3) = Finset.univ.image (arrRef spec0) := by decide

theorem bigSep_F3 {M : Type} [URA M] (Φ : Fin 3 → sProp M) :
    bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- The three buffers' contents after n grid points: x and y as the region found them, the result as
    the write-backs so far left it. -/
def A3 (c : Dev nD) (n : ℕ) : (w : Fin 3) → Buf (Elt F) ((win3 w).arr.view.loc (c.tc : Thread nD τ)) := fun
  | ⟨0, _⟩ => (dats m 0 c).arrAt 0 n
  | ⟨1, _⟩ => (dats m 0 c).arrAt 2 n
  | ⟨2, _⟩ => (dats m 0 c).arrAt 4 n
  | ⟨_ + 3, h⟩ => absurd h (Nat.not_lt.2 (Nat.le_add_left _ _))

theorem arrAt_1 (c : Dev nD) (n : ℕ) : (dats m 0 c).arrAt 1 n = (dats m 0 c).arrAt 0 n :=
  ((dats m 0 c).arrAt_in 1 rfl n).trans (((dats m 0 c).arrAt_in 0 rfl n).symm)
theorem arrAt_3 (c : Dev nD) (n : ℕ) : (dats m 0 c).arrAt 3 n = (dats m 0 c).arrAt 2 n :=
  ((dats m 0 c).arrAt_in 3 rfl n).trans (((dats m 0 c).arrAt_in 2 rfl n).symm)

/-- The five windows' arrays at their shares are the three buffers held whole: the two halves of a
    shared buffer's share, at one contents, are its full share. -/
theorem arrays_iff (c : Dev nD) (n : ℕ) :
    ((dats m 0 c).arrays ((dats m 0 c).arrAt · n) : sProp 𝕄) ⊣⊢ arrPts win3 c (A3 m c n) := by
  have hs := PosShare.mem_left_op_right fullShare
  have h5 : ((dats m 0 c).arrays ((dats m 0 c).arrAt · n) : sProp 𝕄)
      = iprop((((c.tc : Thread nD τ).loc main_arg0) ↦{fullShare.left} (dats m 0 c).arrAt 0 n)
          ∗ (((c.tc : Thread nD τ).loc main_arg0) ↦{fullShare.right} (dats m 0 c).arrAt 0 n)
          ∗ (((c.tc : Thread nD τ).loc main_arg1) ↦{fullShare.left} (dats m 0 c).arrAt 2 n)
          ∗ (((c.tc : Thread nD τ).loc main_arg1) ↦{fullShare.right} (dats m 0 c).arrAt 2 n)
          ∗ (((c.tc : Thread nD τ).loc main_call0_v0) ↦{fullShare} (dats m 0 c).arrAt 4 n)) := by
    unfold Dat.arrays
    rw [bigSep_W0, (arr_whole0 0).set_eq_univ, (arr_whole0 2).set_eq_univ, (arr_whole0 4).set_eq_univ]
    dsimp only
    rw [arrAt_1 m c n, arrAt_3 m c n]
    rfl
  have h3 : (arrPts win3 c (A3 m c n) : sProp 𝕄)
      = iprop((((c.tc : Thread nD τ).loc main_arg0) ↦{fullShare} (dats m 0 c).arrAt 0 n)
          ∗ (((c.tc : Thread nD τ).loc main_arg1) ↦{fullShare} (dats m 0 c).arrAt 2 n)
          ∗ (((c.tc : Thread nD τ).loc main_call0_v0) ↦{fullShare} (dats m 0 c).arrAt 4 n)) := by
    unfold arrPts
    rw [bigSep_F3]
    rfl
  rw [h5, h3]
  constructor
  · iintro ⟨H0, H1, H2, H3, H4⟩
    isplitl [H0 H1]
    · iapply (pointsTo_share hs).2
      isplitl [H0] <;> iassumption
    isplitl [H2 H3]
    · iapply (pointsTo_share hs).2
      isplitl [H2] <;> iassumption
    iexact H4
  · iintro ⟨Hx, Hy, Hr⟩
    ihave Hx2 := (pointsTo_share hs).1 $$ Hx
    icases Hx2 with ⟨H0, H1⟩
    ihave Hy2 := (pointsTo_share hs).1 $$ Hy
    icases Hy2 with ⟨H2, H3⟩
    isplitl [H0]; · iexact H0
    isplitl [H1]; · iexact H1
    isplitl [H2]; · iexact H2
    isplitl [H3]; · iexact H3
    iexact Hr

/-- What the launch hands the pipeline of the core's unscoped buffers — the three buffers whole at the
    entry contents — makes the windows' arrays at entry. -/
theorem hsplit (c : Dev nD) : (arrBufs spec0 c (V m c) : sProp 𝕄) ⊢ (dats m 0 c).arrays ((dats m 0 c).arrAt · 0) := by
  refine BIBase.Entails.trans ?_ (arrays_iff m c 0).2
  unfold arrBufs arrPts
  rw [← image_win3, show Finset.univ.image (arrRef win3) = Finset.univ.map ⟨arrRef win3, win3_inj⟩ from
    (Finset.map_eq_image ⟨arrRef win3, win3_inj⟩ Finset.univ).symm, bigSep_map]
  exact BIBase.Entails.of_eq (bigSep_congr fun w _ => by
    match w with
    | ⟨0, _⟩ => rfl
    | ⟨1, _⟩ => rfl
    | ⟨2, _⟩ => rfl)

/-! ## The lines after the region -/

/-- The two stretches of host operations after the region. -/
abbrev opss : List (List (HloOp τ sig (Elt F))) := [hostOps1, hostOps1_1]

theorem win3_unscoped : ∀ w, (arrRef win3 w).isScoped = false := by decide

/-- They touch only the three buffers and the buffers the region does not stage, -/
theorem sfx_sub3 : ∀ ops ∈ (opss : List (List (HloOp τ sig (Elt F)))), ∀ op ∈ ops,
    op.bufs ⊆ tailRefs sig Prefetch.none win3 := by
  rw [Pipeline.tailRefs_none win3 win3_unscoped]
  intro ops hops op hop
  simp only [opss, List.mem_cons, List.mem_nil_iff, _root_.or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- allocate nothing, -/
theorem sfx_fresh : ∀ ops ∈ (opss : List (List (HloOp τ sig (Elt F)))), ∀ op ∈ ops, op.fresh = ∅ := by
  intro ops hops op hop
  simp only [opss, List.mem_cons, List.mem_nil_iff, _root_.or_false] at hops
  rcases hops with rfl | rfl
  · exact (List.forall_iff_forall_mem.mp hostOps1_fresh) op hop
  · exact (List.forall_iff_forall_mem.mp hostOps1_1_fresh) op hop
/-- and write none of the three buffers: each writes its own result buffer only. -/
theorem sfx_keeps3 : ∀ ops ∈ (opss : List (List (HloOp τ sig (Elt F)))), ∀ op ∈ ops,
    ∀ w, Proc.devRef .tc (arrRef win3 w) ∉ op.writes := by
  intro ops hops op hop
  simp only [opss, List.mem_cons, List.mem_nil_iff, _root_.or_false] at hops
  rcases hops with rfl | rfl
  · simp only [hostOps1, List.mem_cons, List.mem_nil_iff, _root_.or_false] at hop
    rcases hop with rfl
    all_goals intro w; fin_cases w <;> simp only [StableHlo.TRef.reshape, StableHlo.nullary_writes, StableHlo.unary_writes, StableHlo.binary_writes, StableHlo.reshape_writes, Finset.mem_singleton] <;> exact StableHlo.devRef_ne_of_ne (by decide)
  · simp only [hostOps1_1, List.mem_cons, List.mem_nil_iff, _root_.or_false] at hop
    rcases hop with rfl | rfl
    all_goals intro w; fin_cases w <;> simp only [StableHlo.nullary_writes, StableHlo.unary_writes, StableHlo.binary_writes, StableHlo.reshape_writes, Finset.mem_singleton] <;> exact StableHlo.devRef_ne_of_ne (by decide)

/-- The core's buffers after the host operations, run from the region's exit. -/
def afterT (c : Dev nD) (b : Ref sig .tc) : Buf (Elt F) ((c.tc : Thread nD τ).loc b) :=
  StableHlo.after (opss (F := F)).flatten (withArrays win3 c (V0 m c) (A3 m c cfg0.N)) (Proc.devRef .tc b)

theorem rest3 (c : Dev nD) (W : (b : Ref sig .tc) → Buf (Elt F) ((c.tc : Thread nD τ).loc b)) :
    (unscopedRestP Prefetch.none win3 c W : sProp 𝕄) = unscopedRestP Prefetch.none spec0 c W := by
  unfold unscopedRestP; rw [image_win3]

/-- The host operations after the region, run from its exit: the shared buffers' halves are joined,
    the operations run within the three buffers and the rest, and the halves are split again. -/
theorem htail (c : Dev nD) (Q' : PUnit → sProp 𝕄) :
    iprop((iprop((dats m 0 c).arrays ((dats m 0 c).arrAt · cfg0.N) ∗ unscopedRestP Prefetch.none spec0 c (afterT m c)) -∗ Q' ⟨⟩)
        ∗ boundary (c.tc : Thread nD τ) ∗ (dats m 0 c).arrays ((dats m 0 c).arrAt · cfg0.N) ∗ unscopedRestP Prefetch.none spec0 c (V m c))
      ⊢ wp frame (wpE (Pipeline.defs (fun q => (cfgs q).toPCfg (Val := Elt F)) defs₀) (Variants.lift Variants.none) (c.tc : Thread nD τ) none) Set.univ
          (Pipeline.chain ((opss (F := F)).map StableHlo.seq)) Q' := by
  have h := Pipeline.tail_seqs (Ix := Unit) (Name := ℕ) (U := UR sig nD τ) (Lvl := ℕ) (fun q => (cfgs q).toPCfg (Val := Elt F)) defs₀ Variants.none
    Prefetch.none win3 win3_inj c (V0 m c) (A3 m c cfg0.N) (opss (F := F)) sfx_sub3 sfx_fresh sfx_keeps3 Q'
  rw [rest3, rest3] at h
  refine BIBase.Entails.trans ?_ h
  iintro ⟨Hk, Hb, Ha, Hz⟩
  ihave Ha3 := (arrays_iff m c cfg0.N).1 $$ Ha
  isplitl [Hk]
  · iintro ⟨Ha', Hz'⟩
    iapply Hk
    isplitl [Ha']
    · iapply (arrays_iff m c cfg0.N).2; iexact Ha'
    iexact Hz'
  isplitl [Hb]; · iexact Hb
  isplitl [Ha3]; · iexact Ha3
  iexact Hz

/-! ## The run -/

set_option backward.isDefEq.respectTransparency.types false in
/-- Every weakly fair execution of @main terminates; at the end every window's array holds what the
    write-backs left (x and y their entry contents, the 1 x 1 result the last point's block), and every
    other unscoped buffer what the host operations after the region left. -/
theorem run_main : θ_run defs (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ restRefs sig spec0, r.2.mem ((c.tc : Thread nD τ).loc b) = afterT m c b) := by
  classical
  exact Pipeline.θ_run_region_pf_tail (fun q => (cfgs q).toPCfg (Val := Elt F)) (fun q => (cfgs q).toPCfg_adm) (dats m) ()
    cellOf_inj (0 : Fin 1) winFacts₀0 (OwnSemFacts.none spec0) (PreFacts.none _) emb₁ defs₀ Variants.none m ρ main
    (fun _ => Pipeline.chain ((opss (F := F)).map StableHlo.seq))
    (fun c => (body_obligation m c).loose)
    block_pos0 arr_whole0 stage_whole0 (fun _ _ => rfl)
    (G := fun _ => iprop(emp))
    (u₀ := initOf (cells (pin (fun q => (cfgs q).toPCfg (Val := Elt F)) (fun q => (cfgs q).toPCfg_adm)) cellOf_inj)
      (launchToks (pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (cells (pin (fun q => (cfgs q).toPCfg (Val := Elt F)) (fun q => (cfgs q).toPCfg_adm)) cellOf_inj) (launchToks (pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (afterT m c))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [Pipeline.ownSems0_none]; unfold ΦA
      iintro ⟨Hr, Hp⟩
      isplitl [Hp]; · iexact Hp
      isplitr; · iempintro
      iexact Hr))
    (htail := fun c Q' => htail m c Q')
    (QY := fun c s => ∀ b ∈ restRefsP sig Prefetch.none spec0, s.mem ((c.tc : Thread nD τ).loc b) = afterT m c b)
    (hY := fun c s' => by
      iintro ⟨-, HU, HSI⟩
      unfold unscopedRestP
      imodintro
      iapply (pointsTo_read_all (restRefsP sig Prefetch.none spec0) (fun b => (c.tc : Thread nD τ).loc b) (afterT m c) s')
      isplitl [HU] <;> iassumption)
    (hQ := fun s h c => ⟨(h c).1, Pipeline.rest_of_restP Prefetch.none spec0 (fun k => k.elim0) c (afterT m c) s (fun k => k.elim0) (h c).2.1 (h c).2.2⟩)

/-- The frame: every execution terminates and leaves x and y as it found them. Each is a window's
    array that no write-back touches, so it ends at its entry contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c)))⟩) (run_main m ρ)

end Cert.Kernel.Hand

end
-- ==== Proof.FrameKI.Shared.lean ====
/-
  What the runs of the kernel body and the launch share: the contents of the arrays when the
  region is entered, each window's block at a grid point, the two branch conditions of the body in
  closed form over the 64 grid points (the accumulator is reset at point 0 and written out at
  point 63), where the output window is idle, and the staging and scratch memrefs by name.
-/
import proofs.«104481_j69131793596443_1_alg».proof.Proof.Gen.KernelIdeal.Launch
import proofs.«104481_j69131793596443_1_alg».proof.Proof.Gen.KernelIdeal.Skeleton
import proofs.«104481_j69131793596443_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers' contents when the region is entered: no host operation comes before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the region continued by the reshape of its 1 x 1 result, the constant 2^24 and the quotient. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [] [hostOps1, hostOps1_1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a
    window not fetched at a point has not moved, and the body leaves every input block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The first branch (the accumulator is zeroed): both grid coordinates are 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at grid point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second branch (the accumulator is copied to the output block): both grid coordinates are 7. -/
abbrev cond0_1 (i : grid0.Coords) : Prop := k0_cond2 i = 1#1
/-- It holds at grid point 63 only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the body stores nothing into the output block, -/
theorem idleAt0_4 : ∀ t : Fin cfg0.N, ¬cond0_1 (grid0.coords t) → cfg0.idle 4 (grid0.coords t) = true := by decide +kernel
/-- and the pipeline does not write it back there. -/
theorem noFlush0_4 : ∀ t : Fin cfg0.N, ¬cond0_1 (grid0.coords t) → (cfg0.win 4).flush t = false := by decide +kernel
/-- At the last point the body stores into it. -/
theorem liveAt0_4 : ∀ t : Fin cfg0.N, cond0_1 (grid0.coords t) → cfg0.idle 4 (grid0.coords t) = false := by decide +kernel

/-! ## The memrefs the body is called with -/

/-- The output window's one staging buffer as a view, through which its contents are stated. -/
abbrev VO0_4 : View sig .tc .vmem S1x1 .f32 := (Memref.whole cc0_stg4_0 : Memref sig .tc .vmem S1x1 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The 1 x 1 accumulator: a scoped buffer of the kernel's own, carried from point to point. -/
abbrev scM0_0 : Memref sig .tc .vmem S1x1 .f32 := Memref.whole cc0_scratch0
abbrev VS0_0 : View sig .tc .vmem S1x1 .f32 := scM0_0.view

/-- What the region hands the body besides the windows: the accumulator at some contents and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## One grid point's arithmetic -/

/-- The accumulator after a grid point, from the four input blocks there and the accumulator before:
    the tile's four sums combined and added on. -/
def step (i : grid0.Coords) (x0 x1 x2 x3 : Vec F S512x512 .f32) (acc : Vec F S1x1 .f32) : Vec F S1x1 .f32 :=
  k0_pay1 (k0_pay11 (k0_pay3 x0) (k0_pay5 x3) (k0_pay9 x0 x3))
    (k0_pay12 (BitVec.ofNat 32 (i 0).val) (BitVec.ofNat 32 (i 1).val) (k0_pay9 x0 x3))
    (k0_pay13 (k0_pay10 x0 x1)) (k0_pay14 (k0_pay4 x2) (k0_pay5 x3) (k0_pay8 x2 x3)) acc

end Cert.KernelIdeal.Hand

end
-- ==== Proof.FrameKI.RunA.lean ====
/-
  The kernel body at the first grid point (the accumulator is zeroed, then the tile's term added;
  the output block is not touched): its triple on any whole staging memrefs, the input blocks
  given, with the pieces the accumulator ends with.
-/
import proofs.«104481_j69131793596443_1_alg».proof.Proof.FrameKI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S512x512 .f32) :
    { LS0 : List (View.Piece (Elt F) S1x1 .f32) //
      ∀ (d4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ (∃ f, arg7.view.loc (c : Thread nD τ) ↦[arg7.view.set]{fullShare} arg7.view.writes (Elt F) f LS0)) -∗ K ⟨⟩))
          ⊢ wp frame (wpE (defs₀ (F := F)) Variants.none c none) E (cc0__combo_kernel i arg2 harg2 arg3 harg3 arg4 harg4 arg5 harg5 arg6 harg6 arg7 harg7) K } := by
  refine ⟨?_, fun d4 E K => ?run⟩
  case run =>
    simp only [cc0__combo_kernel_eq_skeleton]; unfold cc0__combo_kernel_skel
    simp only [k0_part1_eq_skeleton, k0_part2_eq_skeleton]
    unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    iexists _; iexact HS0

end Cert.KernelIdeal.Hand

end
-- ==== Proof.FrameKI.RunB.lean ====
/-
  The kernel body at a grid point that is neither the first nor the last (the tile's term is added
  to the accumulator; the output block is not touched): its triple on any whole staging memrefs,
  the input blocks and the accumulator's contents given, with the piece the accumulator ends with.
-/
import proofs.«104481_j69131793596443_1_alg».proof.Proof.FrameKI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S512x512 .f32) (xs0 : Vec F S1x1 .f32) :
    { LS0 : List (View.Piece (Elt F) S1x1 .f32) //
      ∀ (d4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ (∃ f, arg7.view.loc (c : Thread nD τ) ↦[arg7.view.set]{fullShare} arg7.view.writes (Elt F) f LS0)) -∗ K ⟨⟩))
          ⊢ wp frame (wpE (defs₀ (F := F)) Variants.none c none) E (cc0__combo_kernel i arg2 harg2 arg3 harg3 arg4 harg4 arg5 harg5 arg6 harg6 arg7 harg7) K } := by
  refine ⟨?_, fun d4 E K => ?run⟩
  case run =>
    simp only [cc0__combo_kernel_eq_skeleton]; unfold cc0__combo_kernel_skel
    simp only [k0_part1_eq_skeleton, k0_part2_eq_skeleton]
    unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    iexists _; iexact HS0

end Cert.KernelIdeal.Hand

end
-- ==== Proof.FrameKI.RunC.lean ====
/-
  The kernel body at the last grid point (the tile's term is added to the accumulator, and the
  accumulator is then copied into the output block): its triple on any whole staging memrefs, the
  input blocks and the accumulator's contents given, with the pieces the output block and the
  accumulator end with.
-/
import proofs.«104481_j69131793596443_1_alg».proof.Proof.FrameKI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__combo_kernel i arg2 harg2 arg3 harg3 arg4 harg4 arg5 harg5 arg6 harg6 arg7 harg7) K } := by
  refine ⟨?_, ?_, fun E K => ?run⟩
  case run =>
    simp only [cc0__combo_kernel_eq_skeleton]; unfold cc0__combo_kernel_skel
    simp only [k0_part1_eq_skeleton, k0_part2_eq_skeleton]
    unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.FrameKI.Pieces.lean ====
/-
  What each case of the body leaves behind, read back from the pieces its run found: the
  accumulator after the first point, after a middle point and after the last point, and the output
  block after the last point. Each list of pieces covers its 1 x 1 buffer, so what is read back does
  not depend on what the buffer held before.
-/
import proofs.«104481_j69131793596443_1_alg».proof.Proof.FrameKI.RunA
import proofs.«104481_j69131793596443_1_alg».proof.Proof.FrameKI.RunB
import proofs.«104481_j69131793596443_1_alg».proof.Proof.FrameKI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator's pieces at the first point cover it. -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S512x512 .f32) (y : S1x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1x1.size (by sl_kernel_rfl) y

/-- What the first point leaves in the accumulator. -/
def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S512x512 .f32) : Vec F S1x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

/-- The accumulator's piece at a middle point covers it. -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S512x512 .f32) (xs0 : Vec F S1x1 .f32) (y : S1x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1x1.size (by sl_kernel_rfl) y

/-- What a middle point leaves in the accumulator. -/
def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S512x512 .f32) (xs0 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

/-- The output block's piece at the last point covers it. -/
theorem cover0_C_4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1.size (by sl_kernel_rfl) y

/-- What the last point leaves in the output block. -/
def out0_C_4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) : Vec F S1x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The accumulator's piece at the last point covers it. -/
theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1x1.size (by sl_kernel_rfl) y

/-- What the last point leaves in the accumulator. -/
def sout0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

end Cert.KernelIdeal.Hand

end
-- ==== Proof.FrameKI.Body.lean ====
/-
  The accumulator point by point, the proof data of the one pipeline, and the body obligation.

  After grid point 0 the accumulator holds the first tile's term added to zero; after every later
  point it holds that point's term added to what the point before left; at point 63 the same value
  is also stored into the 1 x 1 output block, which the pipeline then writes back. Between points the
  region's invariant keeps the accumulator at exactly that value. The two windows that read x hold
  the two halves of x's share, and likewise for y; the output array is held whole.
-/
import proofs.«104481_j69131793596443_1_alg».proof.Proof.FrameKI.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator after each grid point -/

/-- What the accumulator holds after the body at position n: at 0 the first case's contents, afterwards
    the middle (or, at 63, the last) case's over what position n - 1 left. -/
def accAt0 (c : Dev nD) : (n : ℕ) → n < cfg0.N → Vec F S1x1 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)
  | n + 1, hn =>
    if h1 : (n + 1) % 64 = 63 then
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (by have hN : n + 1 < 64 := lt_of_lt_of_eq hn (show cfg0.N = 64 from N_0); (try dsimp only); omega)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (accAt0 c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => absurd ((hcond0_0 ⟨n + 1, hn⟩).mp h) (by have hN : n + 1 < 64 := lt_of_lt_of_eq hn (show cfg0.N = 64 from N_0); (try dsimp only); omega)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (accAt0 c n (Nat.lt_of_succ_lt hn))

theorem accAt0_A (c : Dev nD) (t : Fin cfg0.N) (h0 : t.val % 64 = 0) (h1 : ¬t.val % 64 = 63) :
    accAt0 m c t.val t.isLt = sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t) := by
  obtain ⟨n, hn⟩ := t
  cases n with
  | zero => exact rfl
  | succ n => exact (by exfalso; have hN : n + 1 < 64 := lt_of_lt_of_eq hn (show cfg0.N = 64 from N_0); (try dsimp only at h0); omega)

theorem accAt0_B (c : Dev nD) (t : Fin cfg0.N) (h0 : ¬t.val % 64 = 0) (h1 : ¬t.val % 64 = 63) :
    accAt0 m c t.val t.isLt = sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem accAt0_C (c : Dev nD) (t : Fin cfg0.N) (h0 : ¬t.val % 64 = 0) (h1 : t.val % 64 = 63) :
    accAt0 m c t.val t.isLt = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-- What the output block's staging buffer holds after the body at point t: at the last point the
    accumulator's value stored into it; elsewhere the body does not touch it (the value given here is
    then consulted by nothing). -/
def outAt0 (c : Dev nD) (t : Fin cfg0.N) : Vec F S1x1 .f32 :=
  if h1 : t.val % 64 = 63 then
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => absurd ((hcond0_0 t).mp h) (by omega)) ((hcond0_1 t).mpr h1) (iblk m c 0 t) (iblk m c 1 t) (iblk m c 2 t) (iblk m c 3 t) (accAt0 m c (t.val - 1) (Nat.lt_of_le_of_lt (Nat.sub_le _ _) t.isLt))
  else accAt0 m c t.val t.isLt

theorem outAt0_C (c : Dev nD) (t : Fin cfg0.N) (h0 : ¬t.val % 64 = 0) (h1 : t.val % 64 = 63) :
    outAt0 m c t = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt0 m c (t.val - 1) (Nat.lt_of_le_of_lt (Nat.sub_le _ _) t.isLt)) :=
  dif_pos h1

/-! ## The invariant between points -/

/-- Before the first point the accumulator holds anything; before position n + 1 it holds what
    position n left. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare (accAt0 m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt0 m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt0 m c (n - 1) (by omega))) ∗ (∃ r, prngReg c r)) := by
  cases n with
  | zero => exact absurd rfl hz
  | succ n => rfl

/-! ## The pipeline's proof data -/

/-- The arrays as the region finds them; each input's buffer left at its block; the output block's at
    `outAt0`; the invariant `PhiS`; nothing owed; x's share split between windows 0 and 1, y's between
    windows 2 and 3. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt0 m c t
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the point's position says which
    case it is in; the invariant hands the body the accumulator at what the point before left (at
    anything at the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · have h1 : ¬t.val % 64 = 63 := by omega
    have hz : t.val = 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t (fun h => h1 ((hcond0_1 t).mp h))) (noFlush0_4 t (fun h => h1 ((hcond0_1 t).mp h)))]
    rw [accAt0_A m c t h0 h1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    by_cases h1 : t.val % 64 = 63
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outAt0_C m c t h0 h1, accAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [accAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the accumulator back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.FrameKI.Launch.lean ====
/-
  The launch: from the body obligation to the run of @main.

  Windows 0 and 1 both read x and windows 2 and 3 both read y, so the five windows stand on three
  distinct buffers: x, y and the 1 x 1 result. Each shared buffer's full share is split into its two
  halves, one per window, for the duration of the region, and joined again at its exit; an input array
  is never written, so both halves still hold the entry contents. With the three buffers whole again,
  the three host operations after the region (the reshape of the result, the constant 2^24 and the
  quotient) run within the buffers the region does not stage.
-/
import proofs.«104481_j69131793596443_1_alg».proof.Proof.FrameKI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrPts withArrays unscopedRestP unscopedRest arrBufs tailRefs restRefs restRefsP ΦA
  scopedRest ownSems0 cells launchToks Prefetch PreFacts OwnSemFacts pin)

/-! ## One window per distinct buffer -/

/-- The three buffers behind the five windows: x, y and the 1 x 1 result. -/
abbrev win3 : Fin 3 → Pipeline.WinSpec sig grid0.rank := fun
  | 0 => spec0 0 | 1 => spec0 2 | 2 => spec0 4
  | ⟨_ + 3, h⟩ => absurd h (Nat.not_lt.2 (Nat.le_add_left _ _))

theorem win3_inj : Function.Injective (arrRef win3) := by decide
theorem image_win3 : Finset.univ.image (arrRef win3) = Finset.univ.image (arrRef spec0) := by decide

theorem bigSep_F3 {M : Type} [URA M] (Φ : Fin 3 → sProp M) :
    bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- The three buffers' contents after n grid points: x and y as the region found them, the result as
    the write-backs so far left it. -/
def A3 (c : Dev nD) (n : ℕ) : (w : Fin 3) → Buf (Elt F) ((win3 w).arr.view.loc (c.tc : Thread nD τ)) := fun
  | ⟨0, _⟩ => (dats m 0 c).arrAt 0 n
  | ⟨1, _⟩ => (dats m 0 c).arrAt 2 n
  | ⟨2, _⟩ => (dats m 0 c).arrAt 4 n
  | ⟨_ + 3, h⟩ => absurd h (Nat.not_lt.2 (Nat.le_add_left _ _))

theorem arrAt_1 (c : Dev nD) (n : ℕ) : (dats m 0 c).arrAt 1 n = (dats m 0 c).arrAt 0 n :=
  ((dats m 0 c).arrAt_in 1 rfl n).trans (((dats m 0 c).arrAt_in 0 rfl n).symm)
theorem arrAt_3 (c : Dev nD) (n : ℕ) : (dats m 0 c).arrAt 3 n = (dats m 0 c).arrAt 2 n :=
  ((dats m 0 c).arrAt_in 3 rfl n).trans (((dats m 0 c).arrAt_in 2 rfl n).symm)

/-- The five windows' arrays at their shares are the three buffers held whole: the two halves of a
    shared buffer's share, at one contents, are its full share. -/
theorem arrays_iff (c : Dev nD) (n : ℕ) :
    ((dats m 0 c).arrays ((dats m 0 c).arrAt · n) : sProp 𝕄) ⊣⊢ arrPts win3 c (A3 m c n) := by
  have hs := PosShare.mem_left_op_right fullShare
  have h5 : ((dats m 0 c).arrays ((dats m 0 c).arrAt · n) : sProp 𝕄)
      = iprop((((c.tc : Thread nD τ).loc main_arg0) ↦{fullShare.left} (dats m 0 c).arrAt 0 n)
          ∗ (((c.tc : Thread nD τ).loc main_arg0) ↦{fullShare.right} (dats m 0 c).arrAt 0 n)
          ∗ (((c.tc : Thread nD τ).loc main_arg1) ↦{fullShare.left} (dats m 0 c).arrAt 2 n)
          ∗ (((c.tc : Thread nD τ).loc main_arg1) ↦{fullShare.right} (dats m 0 c).arrAt 2 n)
          ∗ (((c.tc : Thread nD τ).loc main_call0_v0) ↦{fullShare} (dats m 0 c).arrAt 4 n)) := by
    unfold Dat.arrays
    rw [bigSep_W0, (arr_whole0 0).set_eq_univ, (arr_whole0 2).set_eq_univ, (arr_whole0 4).set_eq_univ]
    dsimp only
    rw [arrAt_1 m c n, arrAt_3 m c n]
    rfl
  have h3 : (arrPts win3 c (A3 m c n) : sProp 𝕄)
      = iprop((((c.tc : Thread nD τ).loc main_arg0) ↦{fullShare} (dats m 0 c).arrAt 0 n)
          ∗ (((c.tc : Thread nD τ).loc main_arg1) ↦{fullShare} (dats m 0 c).arrAt 2 n)
          ∗ (((c.tc : Thread nD τ).loc main_call0_v0) ↦{fullShare} (dats m 0 c).arrAt 4 n)) := by
    unfold arrPts
    rw [bigSep_F3]
    rfl
  rw [h5, h3]
  constructor
  · iintro ⟨H0, H1, H2, H3, H4⟩
    isplitl [H0 H1]
    · iapply (pointsTo_share hs).2
      isplitl [H0] <;> iassumption
    isplitl [H2 H3]
    · iapply (pointsTo_share hs).2
      isplitl [H2] <;> iassumption
    iexact H4
  · iintro ⟨Hx, Hy, Hr⟩
    ihave Hx2 := (pointsTo_share hs).1 $$ Hx
    icases Hx2 with ⟨H0, H1⟩
    ihave Hy2 := (pointsTo_share hs).1 $$ Hy
    icases Hy2 with ⟨H2, H3⟩
    isplitl [H0]; · iexact H0
    isplitl [H1]; · iexact H1
    isplitl [H2]; · iexact H2
    isplitl [H3]; · iexact H3
    iexact Hr

/-- What the launch hands the pipeline of the core's unscoped buffers — the three buffers whole at the
    entry contents — makes the windows' arrays at entry. -/
theorem hsplit (c : Dev nD) : (arrBufs spec0 c (V m c) : sProp 𝕄) ⊢ (dats m 0 c).arrays ((dats m 0 c).arrAt · 0) := by
  refine BIBase.Entails.trans ?_ (arrays_iff m c 0).2
  unfold arrBufs arrPts
  rw [← image_win3, show Finset.univ.image (arrRef win3) = Finset.univ.map ⟨arrRef win3, win3_inj⟩ from
    (Finset.map_eq_image ⟨arrRef win3, win3_inj⟩ Finset.univ).symm, bigSep_map]
  exact BIBase.Entails.of_eq (bigSep_congr fun w _ => by
    match w with
    | ⟨0, _⟩ => rfl
    | ⟨1, _⟩ => rfl
    | ⟨2, _⟩ => rfl)

/-! ## The lines after the region -/

/-- The two stretches of host operations after the region. -/
abbrev opss : List (List (HloOp τ sig (Elt F))) := [hostOps1, hostOps1_1]

theorem win3_unscoped : ∀ w, (arrRef win3 w).isScoped = false := by decide

/-- They touch only the three buffers and the buffers the region does not stage, -/
theorem sfx_sub3 : ∀ ops ∈ (opss : List (List (HloOp τ sig (Elt F)))), ∀ op ∈ ops,
    op.bufs ⊆ tailRefs sig Prefetch.none win3 := by
  rw [Pipeline.tailRefs_none win3 win3_unscoped]
  intro ops hops op hop
  simp only [opss, List.mem_cons, List.mem_nil_iff, _root_.or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- allocate nothing, -/
theorem sfx_fresh : ∀ ops ∈ (opss : List (List (HloOp τ sig (Elt F)))), ∀ op ∈ ops, op.fresh = ∅ := by
  intro ops hops op hop
  simp only [opss, List.mem_cons, List.mem_nil_iff, _root_.or_false] at hops
  rcases hops with rfl | rfl
  · exact (List.forall_iff_forall_mem.mp hostOps1_fresh) op hop
  · exact (List.forall_iff_forall_mem.mp hostOps1_1_fresh) op hop
/-- and write none of the three buffers: each writes its own result buffer only. -/
theorem sfx_keeps3 : ∀ ops ∈ (opss : List (List (HloOp τ sig (Elt F)))), ∀ op ∈ ops,
    ∀ w, Proc.devRef .tc (arrRef win3 w) ∉ op.writes := by
  intro ops hops op hop
  simp only [opss, List.mem_cons, List.mem_nil_iff, _root_.or_false] at hops
  rcases hops with rfl | rfl
  · simp only [hostOps1, List.mem_cons, List.mem_nil_iff, _root_.or_false] at hop
    rcases hop with rfl
    all_goals intro w; fin_cases w <;> simp only [StableHlo.TRef.reshape, StableHlo.nullary_writes, StableHlo.unary_writes, StableHlo.binary_writes, StableHlo.reshape_writes, Finset.mem_singleton] <;> exact StableHlo.devRef_ne_of_ne (by decide)
  · simp only [hostOps1_1, List.mem_cons, List.mem_nil_iff, _root_.or_false] at hop
    rcases hop with rfl | rfl
    all_goals intro w; fin_cases w <;> simp only [StableHlo.nullary_writes, StableHlo.unary_writes, StableHlo.binary_writes, StableHlo.reshape_writes, Finset.mem_singleton] <;> exact StableHlo.devRef_ne_of_ne (by decide)

/-- The core's buffers after the host operations, run from the region's exit. -/
def afterT (c : Dev nD) (b : Ref sig .tc) : Buf (Elt F) ((c.tc : Thread nD τ).loc b) :=
  StableHlo.after (opss (F := F)).flatten (withArrays win3 c (V0 m c) (A3 m c cfg0.N)) (Proc.devRef .tc b)

theorem rest3 (c : Dev nD) (W : (b : Ref sig .tc) → Buf (Elt F) ((c.tc : Thread nD τ).loc b)) :
    (unscopedRestP Prefetch.none win3 c W : sProp 𝕄) = unscopedRestP Prefetch.none spec0 c W := by
  unfold unscopedRestP; rw [image_win3]

/-- The host operations after the region, run from its exit: the shared buffers' halves are joined,
    the operations run within the three buffers and the rest, and the halves are split again. -/
theorem htail (c : Dev nD) (Q' : PUnit → sProp 𝕄) :
    iprop((iprop((dats m 0 c).arrays ((dats m 0 c).arrAt · cfg0.N) ∗ unscopedRestP Prefetch.none spec0 c (afterT m c)) -∗ Q' ⟨⟩)
        ∗ boundary (c.tc : Thread nD τ) ∗ (dats m 0 c).arrays ((dats m 0 c).arrAt · cfg0.N) ∗ unscopedRestP Prefetch.none spec0 c (V m c))
      ⊢ wp frame (wpE (Pipeline.defs (fun q => (cfgs q).toPCfg (Val := Elt F)) defs₀) (Variants.lift Variants.none) (c.tc : Thread nD τ) none) Set.univ
          (Pipeline.chain ((opss (F := F)).map StableHlo.seq)) Q' := by
  have h := Pipeline.tail_seqs (Ix := Unit) (Name := ℕ) (U := UR sig nD τ) (Lvl := ℕ) (fun q => (cfgs q).toPCfg (Val := Elt F)) defs₀ Variants.none
    Prefetch.none win3 win3_inj c (V0 m c) (A3 m c cfg0.N) (opss (F := F)) sfx_sub3 sfx_fresh sfx_keeps3 Q'
  rw [rest3, rest3] at h
  refine BIBase.Entails.trans ?_ h
  iintro ⟨Hk, Hb, Ha, Hz⟩
  ihave Ha3 := (arrays_iff m c cfg0.N).1 $$ Ha
  isplitl [Hk]
  · iintro ⟨Ha', Hz'⟩
    iapply Hk
    isplitl [Ha']
    · iapply (arrays_iff m c cfg0.N).2; iexact Ha'
    iexact Hz'
  isplitl [Hb]; · iexact Hb
  isplitl [Ha3]; · iexact Ha3
  iexact Hz

/-! ## The run -/

set_option backward.isDefEq.respectTransparency.types false in
/-- Every weakly fair execution of @main terminates; at the end every window's array holds what the
    write-backs left (x and y their entry contents, the 1 x 1 result the last point's block), and every
    other unscoped buffer what the host operations after the region left. -/
theorem run_main : θ_run defs (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ restRefs sig spec0, r.2.mem ((c.tc : Thread nD τ).loc b) = afterT m c b) := by
  classical
  exact Pipeline.θ_run_region_pf_tail (fun q => (cfgs q).toPCfg (Val := Elt F)) (fun q => (cfgs q).toPCfg_adm) (dats m) ()
    cellOf_inj (0 : Fin 1) winFacts₀0 (OwnSemFacts.none spec0) (PreFacts.none _) emb₁ defs₀ Variants.none m ρ main
    (fun _ => Pipeline.chain ((opss (F := F)).map StableHlo.seq))
    (fun c => (body_obligation m c).loose)
    block_pos0 arr_whole0 stage_whole0 (fun _ _ => rfl)
    (G := fun _ => iprop(emp))
    (u₀ := initOf (cells (pin (fun q => (cfgs q).toPCfg (Val := Elt F)) (fun q => (cfgs q).toPCfg_adm)) cellOf_inj)
      (launchToks (pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (cells (pin (fun q => (cfgs q).toPCfg (Val := Elt F)) (fun q => (cfgs q).toPCfg_adm)) cellOf_inj) (launchToks (pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (afterT m c))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [Pipeline.ownSems0_none]; unfold ΦA
      iintro ⟨Hr, Hp⟩
      isplitl [Hp]; · iexact Hp
      isplitr; · iempintro
      iexact Hr))
    (htail := fun c Q' => htail m c Q')
    (QY := fun c s => ∀ b ∈ restRefsP sig Prefetch.none spec0, s.mem ((c.tc : Thread nD τ).loc b) = afterT m c b)
    (hY := fun c s' => by
      iintro ⟨-, HU, HSI⟩
      unfold unscopedRestP
      imodintro
      iapply (pointsTo_read_all (restRefsP sig Prefetch.none spec0) (fun b => (c.tc : Thread nD τ).loc b) (afterT m c) s')
      isplitl [HU] <;> iassumption)
    (hQ := fun s h c => ⟨(h c).1, Pipeline.rest_of_restP Prefetch.none spec0 (fun k => k.elim0) c (afterT m c) s (fun k => k.elim0) (h c).2.1 (h c).2.2⟩)

/-- The frame: every execution terminates and leaves x and y as it found them. Each is a window's
    array that no write-back touches, so it ends at its entry contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c)))⟩) (run_main m ρ)

end Cert.KernelIdeal.Hand

end
-- ==== Proof.Spec.lean ====
/-
  The mathematics of the certificate, stated once and over no program.

  Both programs compute the same scalar of two 4096 x 512 matrices x, y of extended reals:
    * g(u, v)[r, c]  = sum_k u[r, k] * v[c, k]                       (a Gram matrix),
    * n(u)[r]        = sum_k u[r, k] * u[r, k]                       (squared row norms),
    * d(u, v)[r, c]  = max (n(u)[r] + n(v)[c] - 2 * g(u, v)[r, c]) 0 (clamped squared distances),
    * k(u, v)[r, c]  = exp (- d(u, v)[r, c])                         (a Gaussian kernel),
    * o[r, c]        = (g(x, y)[r, c] - [r = c])^2                   (the orthogonality residual),
  and return  mean o + (mean k(x,x) - 2 * mean k(x,y)) + mean k(y,y),  a mean being a sum over the
  4096 x 4096 entries divided by 2^24.  The reference takes the four means separately; the kernel
  walks the 8 x 8 grid of 512 x 512 tiles, adds up per tile
      (tile-sum k(x,x) + tile-sum k(y,y)) - 2 * tile-sum k(x,y) + tile-sum o,
  accumulates the 64 tile terms, and divides once.  The two agree whenever every entry of x and y is
  a real number: then every quantity above is real, and in the reals a quotient distributes over a
  sum and a sum over tiles is the sum over all entries.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An argument array: 4096 rows of 512 extended reals. -/
abbrev Arr : Type := (⟨2, ![4096, 512]⟩ : Shape).Idx → EReal

/-- The number of entries of a 4096 x 4096 matrix, the divisor of every mean. -/
abbrev cnt : ℝ := 16777216

/-- Squared norm of row r. -/
def nrm (A : Arr) (r : Fin 4096) : EReal := ∑ k : Fin 512, A (ix2 r k) * A (ix2 r k)

/-- Entry (r, c) of the Gram matrix of the rows of A against the rows of B. -/
def gram (A B : Arr) (r c : Fin 4096) : EReal := ∑ k : Fin 512, A (ix2 r k) * B (ix2 c k)

/-- Clamped squared distance between row r of A and row c of B. -/
def dist (A B : Arr) (r c : Fin 4096) : EReal :=
  max (nrm A r + nrm B c - ((2 : ℝ) : EReal) * gram A B r c) 0

/-- The Gaussian kernel at (r, c). -/
def gauss (A B : Arr) (r c : Fin 4096) : EReal := Ideal.exp (- dist A B r c)

/-- The identity matrix at (r, c). -/
def delta (r c : Fin 4096) : EReal := ((if r.val = c.val then (1 : ℝ) else 0 : ℝ) : EReal)

/-- The squared orthogonality residual at (r, c). -/
def orth (A B : Arr) (r c : Fin 4096) : EReal :=
  (gram A B r c - delta r c) * (gram A B r c - delta r c)

/-- The sum of all 4096 x 4096 entries, rows outermost. -/
def total (f : Fin 4096 → Fin 4096 → EReal) : EReal := ∑ r : Fin 4096, ∑ c : Fin 4096, f r c

/-- Row p of tile-row i, as a row of the whole matrix. -/
def tileIx (i : Fin 8) (p : Fin 512) : Fin 4096 := ⟨512 * i.val + p.val, by omega⟩

/-- The sum of the 512 x 512 entries of tile (i, j): each row summed, then the row sums. -/
def tile (f : Fin 4096 → Fin 4096 → EReal) (i j : Fin 8) : EReal :=
  ∑ p : Fin 512, ∑ q : Fin 512, f (tileIx i p) (tileIx j q)

/-- What the kernel adds to its accumulator at tile (i, j). -/
def tileTerm (A B : Arr) (i j : Fin 8) : EReal :=
  ((tile (gauss A A) i j + tile (gauss B B) i j) - ((2 : ℝ) : EReal) * tile (gauss A B) i j)
    + tile (orth A B) i j

/-- Grid point t of the 8 x 8 grid, second axis fastest. -/
def tileRow (t : Fin 64) : Fin 8 := ⟨t.val / 8, by omega⟩
def tileCol (t : Fin 64) : Fin 8 := ⟨t.val % 8, by omega⟩

/-- The kernel's result: the 64 tile terms accumulated, divided once. -/
def kernelValue (A B : Arr) : EReal :=
  Ideal.div (∑ t : Fin 64, tileTerm A B (tileRow t) (tileCol t)) ((cnt : ℝ) : EReal)

/-- The reference's result: four means combined. -/
def referenceValue (A B : Arr) : EReal :=
  Ideal.div (total (orth A B)) ((cnt : ℝ) : EReal)
    + ((Ideal.div (total (gauss A A)) ((cnt : ℝ) : EReal)
          - ((2 : ℝ) : EReal) * Ideal.div (total (gauss A B)) ((cnt : ℝ) : EReal))
        + Ideal.div (total (gauss B B)) ((cnt : ℝ) : EReal))

/-- An array all of whose entries are real numbers. -/
def Finite (A : Arr) : Prop := ∀ i, ∃ a : ℝ, A i = (a : EReal)

end Cert.Spec

end
-- ==== Proof.KernelValue.Total.lean ====
/-
  The kernel's accumulated total: the 64 tile terms of the specification, summed over the grid's
  points in order (second grid axis fastest), as a function of the two argument arrays in memory.
-/
import proofs.«104481_j69131793596443_1_alg».proof.Proof.FrameKI.Launch
import proofs.«104481_j69131793596443_1_alg».proof.Proof.Spec

noncomputable section

open scoped BigOperators

namespace Cert.KernelIdeal.KernelValue

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ)

/-- x as the kernel finds it in memory on core c. -/
abbrev xArr (c : Dev nD) : Cert.Spec.Arr := m ((c.tc : Thread nD τ).loc main_arg0)
/-- y likewise. -/
abbrev yArr (c : Dev nD) : Cert.Spec.Arr := m ((c.tc : Thread nD τ).loc main_arg1)

/-- The sum of the tile terms of the grid points 0 … n. -/
def upTo (c : Dev nD) (n : ℕ) : EReal :=
  ∑ t ∈ (Finset.univ : Finset (Fin 64)).filter (fun t => t.val ≤ n),
    Cert.Spec.tileTerm (xArr m c) (yArr m c) (Cert.Spec.tileRow t) (Cert.Spec.tileCol t)

/-- The sum of all 64 tile terms. -/
def total (c : Dev nD) : EReal :=
  ∑ t : Fin 64, Cert.Spec.tileTerm (xArr m c) (yArr m c) (Cert.Spec.tileRow t) (Cert.Spec.tileCol t)

theorem upTo_last (c : Dev nD) : upTo m c 63 = total m c := by
  unfold upTo total
  rw [Finset.filter_true_of_mem (fun t _ => by omega)]

theorem N64 : cfg0.N = 64 := N_0

end Cert.KernelIdeal.KernelValue

end
-- ==== Proof.FrameKI.PieceEq.lean ====
/-
  What each case of the body leaves behind, as one grid point's arithmetic. Each case ends with one
  store that covers the 1 x 1 accumulator (at the first point after a reset that is read back; at the
  last point followed by a copy of it to the output block), and every load reads a whole buffer, so
  what is read back from the pieces is the step function of the four input blocks and the
  accumulator before: the given contents at a middle or the last point, the reset value at the first.
-/
import proofs.«104481_j69131793596443_1_alg».proof.Proof.FrameKI.Pieces
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer rectangle, as the constant function. -/
theorem hz : (![0, 0] : Fin 2 → Nat) = fun _ => 0 := funext fun a => by fin_cases a <;> rfl

/-- A middle point: its one covering store's payload, over loads of the whole buffers, is the step
    from the accumulator's contents before. -/
theorem sout0_B_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S512x512 .f32) (xs0 : Vec F S1x1 .f32) :
    sout0_B_0 c i arg2 harg2 arg3 harg3 arg4 harg4 arg5 harg5 arg6 harg6 arg7 harg7 hc0 hc1 x0 x1 x2 x3 xs0 = step i x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1x1) hz]
  unfold step
  simp only [View.readAt_eq_ld, harg2.read_unread, harg3.read_unread, harg4.read_unread, harg5.read_unread, harg7.read_unread,
    View.ld_unit_zero (S := S512x512) hz, View.ld_unit_zero (S := S1x1) hz]

/-- The last point leaves the same in the accumulator: the copy to the output block does not touch it. -/
theorem sout0_C_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) :
    sout0_C_0 c i arg2 harg2 arg3 harg3 arg4 harg4 arg5 harg5 arg6 harg6 arg7 harg7 hc0 hc1 x0 x1 x2 x3 xs0 = step i x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  dsimp only
  rw [View.canon_unit_zero (S := S1x1) hz]
  unfold step
  simp only [View.readAt_eq_ld, harg2.read_unread, harg3.read_unread, harg4.read_unread, harg5.read_unread, harg7.read_unread,
    View.ld_unit_zero (S := S512x512) hz, View.ld_unit_zero (S := S1x1) hz]

/-- The output block after the last point: one covering store of the accumulator read back after its
    own covering store, so the step again. -/
theorem out0_C_4_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S512x512 .f32) (xs0 : Vec F S1x1 .f32) :
    out0_C_4 c i arg2 harg2 arg3 harg3 arg4 harg4 arg5 harg5 arg6 harg6 arg7 harg7 hc0 hc1 x0 x1 x2 x3 xs0 = step i x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  dsimp only
  rw [View.canon_unit_zero (S := S1x1) hz, View.readCov_unit_zero (S := S1x1) _ hz]
  unfold step
  simp only [View.readAt_eq_ld, harg2.read_unread, harg3.read_unread, harg4.read_unread, harg5.read_unread, harg7.read_unread,
    View.ld_unit_zero (S := S512x512) hz, View.ld_unit_zero (S := S1x1) hz]

/-- The first point: the reset stores its value over the whole accumulator, the update reads that
    back and stores over it, so the later piece alone is read: the step from the reset value. -/
theorem sout0_A_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S512x512 .f32) :
    sout0_A_0 c i arg2 harg2 arg3 harg3 arg4 harg4 arg5 harg5 arg6 harg6 arg7 harg7 hc0 hc1 x0 x1 x2 x3 = step i x0 x1 x2 x3 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  dsimp only
  rw [View.canon_cons_unit_zero (S := S1x1) hz, View.readCov_unit_zero (S := S1x1) _ hz]
  unfold step
  simp only [View.readAt_eq_ld, harg2.read_unread, harg3.read_unread, harg4.read_unread, harg5.read_unread,
    View.ld_unit_zero (S := S512x512) hz]

end Cert.KernelIdeal.Hand

end
-- ==== Proof.StepValue.lean ====
/-
  One grid point of the kernel, as mathematics.  At the extended reals the accumulator after grid
  point (i, j) is the accumulator before plus the tile's term
      (S k(x0, x1) + S k(x2, x3)) - 2 * S k(x0, x3) + S o(x0, x3),
  where S sums the 512 x 512 entries of a tile (each row, then the row sums), k is the Gaussian of the
  clamped squared distances between rows of two blocks and o the squared residual of the Gram matrix
  against the identity of the whole 4096 x 4096 matrix.  The block-level formula is then identified
  with the whole-array specification's tile term when the four blocks are the tile rows of two arrays.
-/
import proofs.«104481_j69131793596443_1_alg».proof.Proof.FrameKI.Shared
import proofs.«104481_j69131793596443_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.StepValue

open Idealize.ShloMosaic Idealize.ShloMosaic.ValueIdx
open Cert.KernelIdeal Cert.KernelIdeal.Gen

/-! ## The block-level vocabulary -/

/-- A 512 x 512 block of extended reals. -/
abbrev Blk : Type := (⟨2, ![512, 512]⟩ : Shape).Idx → EReal

/-- Squared norm of row p of a block. -/
def nrmB (P : Blk) (p : Fin 512) : EReal := ∑ k : Fin 512, P (ix2 p k) * P (ix2 p k)

/-- Entry (p, q) of the Gram matrix of the rows of P against the rows of Q. -/
def gramB (P Q : Blk) (p q : Fin 512) : EReal := ∑ k : Fin 512, P (ix2 p k) * Q (ix2 q k)

/-- The clamped squared distance between row p of P and row q of Q. -/
def distB (P Q : Blk) (p q : Fin 512) : EReal :=
  max (nrmB P p + nrmB Q q - ((2 : ℝ) : EReal) * gramB P Q p q) 0

/-- The Gaussian kernel at (p, q). -/
def gaussB (P Q : Blk) (p q : Fin 512) : EReal := Ideal.exp (- distB P Q p q)

/-- The identity of the whole matrix, seen from tile (i, j) at (p, q). -/
def deltaB (i j : Fin 8) (p q : Fin 512) : EReal :=
  ((if 512 * i.val + p.val = 512 * j.val + q.val then (1 : ℝ) else 0 : ℝ) : EReal)

/-- The squared orthogonality residual of tile (i, j) at (p, q). -/
def orthB (i j : Fin 8) (P Q : Blk) (p q : Fin 512) : EReal :=
  (gramB P Q p q - deltaB i j p q) * (gramB P Q p q - deltaB i j p q)

/-- The sum of the 512 x 512 entries of a tile: each row summed, then the row sums. -/
def tsum (f : Fin 512 → Fin 512 → EReal) : EReal := ∑ p : Fin 512, ∑ q : Fin 512, f p q

/-- What tile (i, j) adds to the accumulator, from its four blocks. -/
def tileTermB (i j : Fin 8) (P0 P1 P2 P3 : Blk) : EReal :=
  ((tsum (gaussB P0 P1) + tsum (gaussB P2 P3)) - ((2 : ℝ) : EReal) * tsum (gaussB P0 P3))
    + tsum (orthB i j P0 P3)

/-! ## Layout operations on columns, read at coordinates -/

section Layout
variable {α : Type}

/-- A vector of a entries cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The sums, read at coordinates -/

/-- A row sum of a 512 x 512 vector: at row p, the sum over the row. -/
theorem rowSum_apply (v : FVec Ideal S512x512 .f32) (p : Fin 512) :
    multiReduction (F := Ideal) .add [1] S512 v 0x00000000#32 reduces_S512x512_S512 (.inl rfl) rfl (ix1 p)
      = ∑ k : Fin 512, v (ix2 p k) := by
  refine (Ideal.multiReduction_add_single v 0x00000000#32 reduces_S512x512_S512 (.inl rfl) rfl (ix1 p)).trans ?_
  refine Finset.sum_congr rfl fun k _ => congrArg v (funext fun a => Fin.ext ?_)
  match a with
  | ⟨0, _⟩ => rfl
  | ⟨1, _⟩ => rfl

/-- The sum of a column [512, 1] over its rows. -/
theorem colSum_apply (v : FVec Ideal S512x1 .f32) (u : Fin 1) :
    multiReduction (F := Ideal) .add [0] S1 v 0x00000000#32 reduces_S512x1_S1 (.inl rfl) rfl (ix1 u)
      = ∑ p : Fin 512, v (ix2 p u) := by
  refine (Ideal.multiReduction_add_single v 0x00000000#32 reduces_S512x1_S1 (.inl rfl) rfl (ix1 u)).trans ?_
  refine Finset.sum_congr rfl fun k _ => congrArg v (funext fun a => Fin.ext ?_)
  match a with
  | ⟨0, _⟩ => rfl
  | ⟨1, _⟩ => rfl

/-- 512 row sums laid as a column, summed, and the one sum laid as a 1 x 1 vector: the total of the
    row sums. -/
theorem colTotal_apply (r : FVec Ideal S512 .f32) (u u' : Fin 1) :
    shapeCast S1x1 (multiReduction (F := Ideal) .add [0] S1 (shapeCast S512x1 r shapeCasts_S512_S512x1)
        0x00000000#32 reduces_S512x1_S1 (.inl rfl) rfl) shapeCasts_S1_S1x1 (ix2 u u')
      = ∑ p : Fin 512, r (ix1 p) := by
  refine (shapeCast_a_1a_apply _ shapeCasts_S1_S1x1 u u').trans ?_
  refine (colSum_apply _ u').trans ?_
  exact Finset.sum_congr rfl fun p _ => shapeCast_a_a1_apply r shapeCasts_S512_S512x1 p u'

/-- The sum of a whole 512 x 512 vector as the kernel takes it: rows first, then the row sums. -/
theorem tileSum_apply (w : FVec Ideal S512x512 .f32) (u u' : Fin 1) :
    shapeCast S1x1 (multiReduction (F := Ideal) .add [0] S1
        (shapeCast S512x1 (multiReduction (F := Ideal) .add [1] S512 w 0x00000000#32 reduces_S512x512_S512 (.inl rfl) rfl)
          shapeCasts_S512_S512x1)
        0x00000000#32 reduces_S512x1_S1 (.inl rfl) rfl) shapeCasts_S1_S1x1 (ix2 u u')
      = ∑ p : Fin 512, ∑ q : Fin 512, w (ix2 p q) := by
  refine (colTotal_apply _ u u').trans ?_
  exact Finset.sum_congr rfl fun p _ => rowSum_apply w p

/-! ## The matrix product, read at coordinates -/

theorem lhs_dot_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_dot_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_dot_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_dot_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The kernel's matrix product into a zero accumulator: at (p, q), row p of the left operand against
    column q of the right one. -/
theorem matmul_ix_apply (l r : FVec Ideal S512x512 .bf16) (p q : Fin 512) :
    matmul dot_S512x512_S512x512_S512x512_1_0_0_1_n_n none l r (constant (F := Ideal) S512x512 .f32 0x00000000#32) (ix2 p q)
      = ∑ k : Fin 512, l (ix2 p k) * r (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-- A block against the transpose of another, both narrowed: the Gram matrix of their rows. -/
theorem gram_apply (x y : Vec Ideal S512x512 .f32) (p q : Fin 512) :
    matmul dot_S512x512_S512x512_S512x512_1_0_0_1_n_n none (truncf .bf16 x bitsLt_bf16_f32)
        (transpose S512x512 [1, 0] (truncf .bf16 y bitsLt_bf16_f32) transposes_S512x512_p1_0_S512x512)
        (constant (F := Ideal) S512x512 .f32 0x00000000#32) (ix2 p q)
      = gramB x y p q := by
  refine (matmul_ix_apply _ _ p q).trans ?_
  refine Finset.sum_congr rfl fun k _ => ?_
  rw [transpose_ix2_apply]
  rfl

/-! ## Literals and words -/

/-- The word 0x40000000 is the number two. -/
theorem two_f32 : Ideal.ofBits .f32 0x40000000#32 = ((2 : ℝ) : EReal) := by
  simp [Ideal.ofBits, Ideal.ieee, -EReal.coe_mul]; norm_num

/-- A tile's first row, offset by a coordinate inside the tile, as a 32-bit word: no wrap-around. -/
theorem row_word (i : ℕ) (hi : i < 8) (p : Fin 512) :
    IntOp.addi (Scalar.muli (BitVec.ofNat 32 i) 512#32) (BitVec.ofNat 32 p.val) = BitVec.ofNat 32 (512 * i + p.val) := by
  apply BitVec.eq_of_toNat_eq
  show ((BitVec.ofNat 32 i * 512#32) + BitVec.ofNat 32 p.val).toNat = _
  simp only [BitVec.toNat_add, BitVec.toNat_mul, BitVec.toNat_ofNat]
  have := p.isLt
  omega

/-- The identity's entry as the kernel computes it: compare the two global coordinates as words, widen
    the bit, convert. -/
theorem delta_word (i j : ℕ) (hi : i < 8) (hj : j < 8) (p q : Fin 512) :
    FloatOps.sitofp (F := Ideal) .f32
        ((IntOp.cmpi .eq (IntOp.addi (Scalar.muli (BitVec.ofNat 32 i) 512#32) (BitVec.ofNat 32 p.val))
          (IntOp.addi (Scalar.muli (BitVec.ofNat 32 j) 512#32) (BitVec.ofNat 32 q.val))).setWidth 32)
      = deltaB ⟨i, hi⟩ ⟨j, hj⟩ p q := by
  rw [row_word i hi p, row_word j hj q]
  unfold deltaB
  have hp := p.isLt
  have hq := q.isLt
  by_cases h : 512 * i + p.val = 512 * j + q.val
  · rw [if_pos h, h]
    show (((((BitVec.ofBool (BitVec.ofNat 32 (512 * j + q.val) == BitVec.ofNat 32 (512 * j + q.val))).setWidth 32).toInt : ℤ) : ℝ) : EReal) = _
    rw [beq_self_eq_true, show ((BitVec.ofBool true).setWidth 32).toInt = 1 by decide, Int.cast_one]
  · rw [if_neg h]
    have hne : (BitVec.ofNat 32 (512 * i + p.val) == BitVec.ofNat 32 (512 * j + q.val)) = false := by
      rw [beq_eq_false_iff_ne]
      intro e
      have e' := congrArg BitVec.toNat e
      simp only [BitVec.toNat_ofNat] at e'
      omega
    show (((((BitVec.ofBool (BitVec.ofNat 32 (512 * i + p.val) == BitVec.ofNat 32 (512 * j + q.val))).setWidth 32).toInt : ℤ) : ℝ) : EReal) = _
    rw [hne, show ((BitVec.ofBool false).setWidth 32).toInt = 0 by decide, Int.cast_zero]

/-! ## The payloads, read at coordinates -/

/-- Squared row norms as a column. -/
theorem normCol_apply (x : Vec Ideal S512x512 .f32) (p : Fin 512) (u : Fin 1) :
    shapeCast S512x1 (multiReduction (F := Ideal) .add [1] S512 (mulf x x) 0x00000000#32 reduces_S512x512_S512 (.inl rfl) rfl)
        shapeCasts_S512_S512x1 (ix2 p u)
      = nrmB x p :=
  (shapeCast_a_a1_apply _ shapeCasts_S512_S512x1 p u).trans (rowSum_apply _ p)

theorem pay3_apply (x : Vec Ideal S512x512 .f32) (p : Fin 512) (u : Fin 1) :
    k0_pay3 (F := Ideal) x (ix2 p u) = nrmB x p := by
  unfold k0_pay3; exact normCol_apply x p u

theorem pay4_apply (x : Vec Ideal S512x512 .f32) (p : Fin 512) (u : Fin 1) :
    k0_pay4 (F := Ideal) x (ix2 p u) = nrmB x p := by
  unfold k0_pay4; exact normCol_apply x p u

theorem pay5_apply (x : Vec Ideal S512x512 .f32) (p : Fin 512) (u : Fin 1) :
    k0_pay5 (F := Ideal) x (ix2 p u) = nrmB x p := by
  unfold k0_pay5; exact normCol_apply x p u

theorem pay8_apply (x y : Vec Ideal S512x512 .f32) (p q : Fin 512) :
    k0_pay8 (F := Ideal) x y (ix2 p q) = gramB x y p q := by
  unfold k0_pay8 k0_pay7; exact gram_apply x y p q

theorem pay9_apply (x y : Vec Ideal S512x512 .f32) (p q : Fin 512) :
    k0_pay9 (F := Ideal) x y (ix2 p q) = gramB x y p q := by
  unfold k0_pay9 k0_pay6 k0_pay7; exact gram_apply x y p q

/-- Norms down the rows plus norms along the columns, less twice a matrix. -/
theorem dist_apply (n0 n1 : FVec Ideal S512x1 .f32) (g : FVec Ideal S512x512 .f32) (p q : Fin 512) :
    subf (addf (broadcastTo S512x512 n0 broadcasts_S512x1_S512x512)
          (broadcastTo S512x512 (transpose S1x512 [1, 0] n1 transposes_S512x1_p1_0_S1x512) broadcasts_S1x512_S512x512))
        (mulf (broadcast S512x512 (Scalar.ofBits (F := Ideal) .f32 0x40000000#32)) g) (ix2 p q)
      = n0 (ix2 p (0 : Fin 1)) + n1 (ix2 q (0 : Fin 1)) - ((2 : ℝ) : EReal) * g (ix2 p q) := by
  show broadcastTo S512x512 n0 broadcasts_S512x1_S512x512 (ix2 p q)
      + broadcastTo S512x512 (transpose S1x512 [1, 0] n1 transposes_S512x1_p1_0_S1x512) broadcasts_S1x512_S512x512 (ix2 p q)
      - Ideal.ofBits .f32 0x40000000#32 * g (ix2 p q) = _
  rw [broadcastTo_a1_ab_apply, broadcastTo_1b_ab_apply, transpose_ix2_apply, two_f32]

/-- The exponential of zero less a clamped vector. -/
theorem gaussV_apply (d : FVec Ideal S512x512 .f32) (i : S512x512.Idx) :
    exp (subf (broadcast S512x512 (Scalar.ofBits (F := Ideal) .f32 0x00000000#32))
        (maximumf d (broadcast S512x512 (Scalar.ofBits (F := Ideal) .f32 0x00000000#32)))) i
      = Ideal.exp (- max (d i) 0) := by
  show Ideal.exp (Ideal.ofBits .f32 0x00000000#32 - max (d i) (Ideal.ofBits .f32 0x00000000#32)) = _
  rw [Ideal.ofBits_zero_f32, zero_sub]

theorem pay10_apply (x y : Vec Ideal S512x512 .f32) (p q : Fin 512) :
    k0_pay10 (F := Ideal) x y (ix2 p q) = nrmB x p + nrmB y q - ((2 : ℝ) : EReal) * gramB x y p q := by
  unfold k0_pay10 k0_pay6
  refine (dist_apply _ _ _ p q).trans ?_
  rw [pay3_apply, normCol_apply, gram_apply]

theorem pay11_apply (n0 n1 : FVec Ideal S512x1 .f32) (g : FVec Ideal S512x512 .f32) (p q : Fin 512) :
    k0_pay11 (F := Ideal) n0 n1 g (ix2 p q)
      = Ideal.exp (- max (n0 (ix2 p (0 : Fin 1)) + n1 (ix2 q (0 : Fin 1)) - ((2 : ℝ) : EReal) * g (ix2 p q)) 0) := by
  unfold k0_pay11
  refine (gaussV_apply _ _).trans ?_
  rw [dist_apply]

theorem pay13_apply (d : FVec Ideal S512x512 .f32) (u u' : Fin 1) :
    k0_pay13 (F := Ideal) d (ix2 u u') = ∑ p : Fin 512, ∑ q : Fin 512, Ideal.exp (- max (d (ix2 p q)) 0) := by
  unfold k0_pay13
  refine (tileSum_apply _ u u').trans ?_
  exact Finset.sum_congr rfl fun p _ => Finset.sum_congr rfl fun q _ => gaussV_apply _ _

theorem pay14_apply (n0 n1 : FVec Ideal S512x1 .f32) (g : FVec Ideal S512x512 .f32) (p : Fin 512) :
    k0_pay14 (F := Ideal) n0 n1 g (ix1 p)
      = ∑ q : Fin 512, Ideal.exp (- max (n0 (ix2 p (0 : Fin 1)) + n1 (ix2 q (0 : Fin 1)) - ((2 : ℝ) : EReal) * g (ix2 p q)) 0) := by
  unfold k0_pay14
  refine (rowSum_apply _ p).trans ?_
  refine Finset.sum_congr rfl fun q _ => ?_
  refine (gaussV_apply _ _).trans ?_
  rw [dist_apply]

/-- The row counter of a 512 x 512 vector at (p, q) is p. -/
theorem iota0_apply (p q : Fin 512) :
    iota .tc S512x512 32 [0] iota_S512x512_d0_w32 (ix2 p q) = BitVec.ofNat 32 p.val := by
  show BitVec.ofNat 32 (0 * 512 + p.val) = _
  rw [Nat.zero_mul, Nat.zero_add]

/-- The column counter of a 512 x 512 vector at (p, q) is q. -/
theorem iota1_apply (p q : Fin 512) :
    iota .tc S512x512 32 [1] iota_S512x512_d1_w32 (ix2 p q) = BitVec.ofNat 32 q.val := by
  show BitVec.ofNat 32 (0 * 512 + q.val) = _
  rw [Nat.zero_mul, Nat.zero_add]

theorem pay12_apply (i j : ℕ) (hi : i < 8) (hj : j < 8) (g : FVec Ideal S512x512 .f32) (p q : Fin 512) :
    k0_pay12 (F := Ideal) (BitVec.ofNat 32 i) (BitVec.ofNat 32 j) g (ix2 p q)
      = (g (ix2 p q) - deltaB ⟨i, hi⟩ ⟨j, hj⟩ p q) * (g (ix2 p q) - deltaB ⟨i, hi⟩ ⟨j, hj⟩ p q) := by
  unfold k0_pay12
  dsimp only [mulf, subf, sitofp, extui, cmpi, addi, broadcast]
  rw [iota0_apply, iota1_apply, delta_word i j hi hj p q]
  rfl

theorem pay1_apply (v66 v79 : FVec Ideal S512x512 .f32) (v83 : FVec Ideal S1x1 .f32) (v84 : FVec Ideal S512 .f32)
    (acc : Vec Ideal S1x1 .f32) (u u' : Fin 1) :
    k0_pay1 (F := Ideal) v66 v79 v83 v84 acc (ix2 u u')
      = acc (ix2 u u') + (((v83 (ix2 u u') + ∑ p : Fin 512, v84 (ix1 p))
          - ((2 : ℝ) : EReal) * ∑ p : Fin 512, ∑ q : Fin 512, v66 (ix2 p q))
          + ∑ p : Fin 512, ∑ q : Fin 512, v79 (ix2 p q)) := by
  unfold k0_pay1
  rw [shapeCast_self]
  dsimp only [addf, subf, mulf, broadcast]
  rw [colTotal_apply, tileSum_apply, tileSum_apply, ← two_f32]
  rfl

/-! ## One grid point -/

/-- The accumulator after grid point (i, j) is the accumulator before plus the tile's term. -/
theorem step_eq (i : grid0.Coords) (x0 x1 x2 x3 : Vec Ideal S512x512 .f32) (acc : Vec Ideal S1x1 .f32) :
    Hand.step (F := Ideal) i x0 x1 x2 x3 acc
      = fun _ => acc (ix2 (0 : Fin 1) (0 : Fin 1))
          + tileTermB ⟨(i 0).val, (show (i 0).val < 8 from (i 0).isLt)⟩ ⟨(i 1).val, (show (i 1).val < 8 from (i 1).isLt)⟩ x0 x1 x2 x3 := by
  funext y
  obtain ⟨u, u', rfl⟩ : ∃ (u u' : Fin 1), y = ix2 u u' := ⟨y 0, y 1, eq_ix2 y⟩
  obtain rfl : u = 0 := Subsingleton.elim _ _
  obtain rfl : u' = 0 := Subsingleton.elim _ _
  unfold Hand.step
  rw [pay1_apply]
  unfold tileTermB tsum
  congr 1
  congr 1
  · congr 1
    · congr 1
      · rw [pay13_apply]
        refine Finset.sum_congr rfl fun p _ => Finset.sum_congr rfl fun q _ => ?_
        rw [pay10_apply]
        rfl
      · refine Finset.sum_congr rfl fun p _ => ?_
        rw [pay14_apply]
        refine Finset.sum_congr rfl fun q _ => ?_
        rw [pay4_apply, pay5_apply, pay8_apply]
        rfl
    · congr 1
      refine Finset.sum_congr rfl fun p _ => Finset.sum_congr rfl fun q _ => ?_
      rw [pay11_apply, pay3_apply, pay5_apply, pay9_apply]
      rfl
  · refine Finset.sum_congr rfl fun p _ => Finset.sum_congr rfl fun q _ => ?_
    rw [pay12_apply _ _ (show (i 0).val < 8 from (i 0).isLt) (show (i 1).val < 8 from (i 1).isLt), pay9_apply]
    rfl

/-! ## The link to the whole-array specification -/

/-- Tile row i of an array — its rows 512 i, …, 512 i + 511 — as a block. -/
def rows (A : Cert.Spec.Arr) (i : Fin 8) : Blk := fun y => A (ix2 (Cert.Spec.tileIx i (y 0)) (y 1))

theorem rows_apply (A : Cert.Spec.Arr) (i : Fin 8) (p k : Fin 512) :
    rows A i (ix2 p k) = A (ix2 (Cert.Spec.tileIx i p) k) := rfl

theorem nrmB_rows (A : Cert.Spec.Arr) (i : Fin 8) (p : Fin 512) :
    nrmB (rows A i) p = Cert.Spec.nrm A (Cert.Spec.tileIx i p) := rfl

theorem gramB_rows (A B : Cert.Spec.Arr) (i j : Fin 8) (p q : Fin 512) :
    gramB (rows A i) (rows B j) p q = Cert.Spec.gram A B (Cert.Spec.tileIx i p) (Cert.Spec.tileIx j q) := rfl

theorem deltaB_eq (i j : Fin 8) (p q : Fin 512) :
    deltaB i j p q = Cert.Spec.delta (Cert.Spec.tileIx i p) (Cert.Spec.tileIx j q) := rfl

theorem gaussB_rows (A B : Cert.Spec.Arr) (i j : Fin 8) (p q : Fin 512) :
    gaussB (rows A i) (rows B j) p q = Cert.Spec.gauss A B (Cert.Spec.tileIx i p) (Cert.Spec.tileIx j q) := by
  unfold gaussB distB Cert.Spec.gauss Cert.Spec.dist
  rw [nrmB_rows, nrmB_rows, gramB_rows]

theorem orthB_rows (A B : Cert.Spec.Arr) (i j : Fin 8) (p q : Fin 512) :
    orthB i j (rows A i) (rows B j) p q = Cert.Spec.orth A B (Cert.Spec.tileIx i p) (Cert.Spec.tileIx j q) := by
  unfold orthB Cert.Spec.orth
  rw [gramB_rows, deltaB_eq]

/-- On the tile rows of two arrays the block-level term is the specification's tile term. -/
theorem tileTermB_rows (A B : Cert.Spec.Arr) (i j : Fin 8) :
    tileTermB i j (rows A i) (rows A j) (rows B i) (rows B j) = Cert.Spec.tileTerm A B i j := by
  unfold tileTermB Cert.Spec.tileTerm tsum Cert.Spec.tile
  simp only [gaussB_rows, orthB_rows]

end Cert.KernelIdeal.StepValue

end
-- ==== Proof.KernelValue.Acc.lean ====
/-
  The accumulator after each grid point, as mathematics.  At grid point t = 8 i + j the four input
  blocks are tile row i of x, tile row j of x, tile row i of y and tile row j of y, so one grid
  point's arithmetic adds the specification's tile term of (i, j) to what the accumulator held.  The
  accumulator starts from zero at point 0; by induction over the points it holds, after point n, the
  sum of the tile terms of the points 0, …, n, and after point 63 the sum of all 64.
-/
import proofs.«104481_j69131793596443_1_alg».proof.Proof.KernelValue.Total
import proofs.«104481_j69131793596443_1_alg».proof.Proof.FrameKI.PieceEq
import proofs.«104481_j69131793596443_1_alg».proof.Proof.StepValue
import Idealize.ShloMosaic.Lib.ValueIdx
import Idealize.ShloMosaic.Lib.Pipeline.Value
import Idealize.ShloMosaic.PureOps.Ideal.Laws

noncomputable section

open scoped BigOperators

namespace Cert.KernelIdeal.KernelValue

open Idealize.ShloMosaic Idealize.ShloMosaic.TcCoe Idealize.SL.Sem Idealize.ShloMosaic.ValueIdx
open Cert.KernelIdeal Cert.KernelIdeal.Gen Cert.KernelIdeal.Hand Cert.KernelIdeal.StepValue

variable (m : (ℓ : Loc nD τ sig) → Buf (Elt Ideal) ℓ)

/-! ## The grid's points as tiles -/

theorem point_lt64 (t : Fin cfg0.N) : t.val < 64 := lt_of_lt_of_eq t.isLt N64

/-- The tile row of grid point t: the first grid coordinate. -/
def rowOf (t : Fin cfg0.N) : Fin 8 := ⟨t.val / 8, by have := point_lt64 t; omega⟩
/-- The tile column of grid point t: the second grid coordinate, which runs fastest. -/
def colOf (t : Fin cfg0.N) : Fin 8 := ⟨t.val % 8, by omega⟩

theorem rowOf_eq (t : Fin cfg0.N) : rowOf t = Cert.Spec.tileRow ⟨t.val, point_lt64 t⟩ := rfl
theorem colOf_eq (t : Fin cfg0.N) : colOf t = Cert.Spec.tileCol ⟨t.val, point_lt64 t⟩ := rfl

/-- The grid's coordinates of point t are its quotient and remainder by 8. -/
theorem point_coords : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The four input windows' block indices at point t: windows 0 and 2 follow the first grid
    coordinate, windows 1 and 3 the second, each along the rows; no window moves along the columns. -/
theorem inWin_index : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = t.val % 8 ∧ win0_3.index t (1 : Fin 2) = 0) :=
  (by decide +kernel : ∀ t : Fin grid0.N, _)

/-! ## The input blocks are tile rows of the arrays in memory

A block's coordinate on an axis is the block index times the block's size plus the coordinate inside
the block. -/

theorem iblk0_apply (c : Dev nD) (t : Fin cfg0.N) (y : S512x512.Idx) :
    (iblk (F := Ideal) m c 0 t : Vec Ideal S512x512 .f32) y = rows (xArr m c) (rowOf t) y := by
  obtain ⟨e0, e1⟩ := And.left (inWin_index t)
  unfold iblk
  rw [View.read_apply]
  show V m c main_arg0 _ = m (c.tc.loc main_arg0) _
  unfold V
  congr 1
  funext a
  apply Fin.ext
  match a with
  | ⟨0, _⟩ => show win0_0.index t 0 * 512 + 1 * (y 0).val = 512 * (t.val / 8) + (y 0).val; rw [e0]; omega
  | ⟨1, _⟩ => show win0_0.index t 1 * 512 + 1 * (y 1).val = (y 1).val; rw [e1]; omega

/-- Window 0's block at point t is tile row i of x. -/
theorem iblk0_rows (c : Dev nD) (t : Fin cfg0.N) :
    (iblk (F := Ideal) m c 0 t : Vec Ideal S512x512 .f32) = rows (xArr m c) (rowOf t) :=
  funext fun y => iblk0_apply m c t y

theorem iblk1_apply (c : Dev nD) (t : Fin cfg0.N) (y : S512x512.Idx) :
    (iblk (F := Ideal) m c 1 t : Vec Ideal S512x512 .f32) y = rows (xArr m c) (colOf t) y := by
  obtain ⟨e0, e1⟩ := (fun h => h.2.1) (inWin_index t)
  unfold iblk
  rw [View.read_apply]
  show V m c main_arg0 _ = m (c.tc.loc main_arg0) _
  unfold V
  congr 1
  funext a
  apply Fin.ext
  match a with
  | ⟨0, _⟩ => show win0_1.index t 0 * 512 + 1 * (y 0).val = 512 * (t.val % 8) + (y 0).val; rw [e0]; omega
  | ⟨1, _⟩ => show win0_1.index t 1 * 512 + 1 * (y 1).val = (y 1).val; rw [e1]; omega

/-- Window 1's block at point t is tile column j of x. -/
theorem iblk1_rows (c : Dev nD) (t : Fin cfg0.N) :
    (iblk (F := Ideal) m c 1 t : Vec Ideal S512x512 .f32) = rows (xArr m c) (colOf t) :=
  funext fun y => iblk1_apply m c t y

theorem iblk2_apply (c : Dev nD) (t : Fin cfg0.N) (y : S512x512.Idx) :
    (iblk (F := Ideal) m c 2 t : Vec Ideal S512x512 .f32) y = rows (yArr m c) (rowOf t) y := by
  obtain ⟨e0, e1⟩ := (fun h => h.2.2.1) (inWin_index t)
  unfold iblk
  rw [View.read_apply]
  show V m c main_arg1 _ = m (c.tc.loc main_arg1) _
  unfold V
  congr 1
  funext a
  apply Fin.ext
  match a with
  | ⟨0, _⟩ => show win0_2.index t 0 * 512 + 1 * (y 0).val = 512 * (t.val / 8) + (y 0).val; rw [e0]; omega
  | ⟨1, _⟩ => show win0_2.index t 1 * 512 + 1 * (y 1).val = (y 1).val; rw [e1]; omega

/-- Window 2's block at point t is tile row i of y. -/
theorem iblk2_rows (c : Dev nD) (t : Fin cfg0.N) :
    (iblk (F := Ideal) m c 2 t : Vec Ideal S512x512 .f32) = rows (yArr m c) (rowOf t) :=
  funext fun y => iblk2_apply m c t y

theorem iblk3_apply (c : Dev nD) (t : Fin cfg0.N) (y : S512x512.Idx) :
    (iblk (F := Ideal) m c 3 t : Vec Ideal S512x512 .f32) y = rows (yArr m c) (colOf t) y := by
  obtain ⟨e0, e1⟩ := (fun h => h.2.2.2) (inWin_index t)
  unfold iblk
  rw [View.read_apply]
  show V m c main_arg1 _ = m (c.tc.loc main_arg1) _
  unfold V
  congr 1
  funext a
  apply Fin.ext
  match a with
  | ⟨0, _⟩ => show win0_3.index t 0 * 512 + 1 * (y 0).val = 512 * (t.val % 8) + (y 0).val; rw [e0]; omega
  | ⟨1, _⟩ => show win0_3.index t 1 * 512 + 1 * (y 1).val = (y 1).val; rw [e1]; omega

/-- Window 3's block at point t is tile column j of y. -/
theorem iblk3_rows (c : Dev nD) (t : Fin cfg0.N) :
    (iblk (F := Ideal) m c 3 t : Vec Ideal S512x512 .f32) = rows (yArr m c) (colOf t) :=
  funext fun y => iblk3_apply m c t y

/-! ## One grid point adds its tile term -/

/-- On tile rows of two arrays, at the tile the grid coordinates name, one grid point's arithmetic
    adds the specification's tile term. -/
theorem step_rows (i : grid0.Coords) (r s : Fin 8) (hr : (i 0).val = r.val) (hs : (i 1).val = s.val)
    (A B : Cert.Spec.Arr) (x0 x1 x2 x3 : Vec Ideal S512x512 .f32)
    (h0 : x0 = rows A r) (h1 : x1 = rows A s) (h2 : x2 = rows B r) (h3 : x3 = rows B s)
    (acc : Vec Ideal S1x1 .f32) :
    Hand.step (F := Ideal) i x0 x1 x2 x3 acc
      = fun _ => acc (ix2 (0 : Fin 1) (0 : Fin 1)) + Cert.Spec.tileTerm A B r s := by
  subst h0 h1 h2 h3
  rw [step_eq]
  have er : (⟨(i 0).val, (show (i 0).val < 8 from (i 0).isLt)⟩ : Fin 8) = r := Fin.ext hr
  have es : (⟨(i 1).val, (show (i 1).val < 8 from (i 1).isLt)⟩ : Fin 8) = s := Fin.ext hs
  rw [er, es, tileTermB_rows]

/-- Grid point t adds the tile term of its tile to the accumulator. -/
theorem step_point (c : Dev nD) (t : Fin cfg0.N) (acc : Vec Ideal S1x1 .f32) :
    Hand.step (F := Ideal) (grid0.coords t) (iblk m c 0 t) (iblk m c 1 t) (iblk m c 2 t) (iblk m c 3 t) acc
      = fun _ => acc (ix2 (0 : Fin 1) (0 : Fin 1))
          + Cert.Spec.tileTerm (xArr m c) (yArr m c) (Cert.Spec.tileRow ⟨t.val, point_lt64 t⟩) (Cert.Spec.tileCol ⟨t.val, point_lt64 t⟩) :=
  step_rows (grid0.coords t) (rowOf t) (colOf t) (point_coords t).1 (point_coords t).2 (xArr m c) (yArr m c)
    _ _ _ _ (iblk0_rows m c t) (iblk1_rows m c t) (iblk2_rows m c t) (iblk3_rows m c t) acc

/-- The reset value of the accumulator is zero. -/
theorem reset_apply (y : S1x1.Idx) : k0_pay2 (F := Ideal) y = 0 := by
  unfold k0_pay2
  rw [shapeCast_self]
  exact Ideal.ofBits_zero_f32

/-! ## The partial sums -/

/-- The partial sum up to point 0 is the first tile's term. -/
theorem upTo_zero (c : Dev nD) :
    upTo m c 0 = Cert.Spec.tileTerm (xArr m c) (yArr m c) (Cert.Spec.tileRow ⟨0, by omega⟩) (Cert.Spec.tileCol ⟨0, by omega⟩) := by
  unfold upTo
  have e : (Finset.univ : Finset (Fin 64)).filter (fun t => t.val ≤ 0) = {⟨0, by omega⟩} := by
    ext t
    simp only [Finset.mem_filter, Finset.mem_univ, true_and, Finset.mem_singleton]
    constructor
    · intro h; exact Fin.ext (by show t.val = 0; omega)
    · intro h; rw [h]
  rw [e, Finset.sum_singleton]

/-- The partial sum up to point n + 1 is the one up to n plus the term of point n + 1. -/
theorem upTo_succ (c : Dev nD) (n : ℕ) (hn : n + 1 < 64) :
    upTo m c (n + 1) = upTo m c n
      + Cert.Spec.tileTerm (xArr m c) (yArr m c) (Cert.Spec.tileRow ⟨n + 1, hn⟩) (Cert.Spec.tileCol ⟨n + 1, hn⟩) := by
  unfold upTo
  have e : (Finset.univ : Finset (Fin 64)).filter (fun t => t.val ≤ n + 1)
      = insert (⟨n + 1, hn⟩ : Fin 64) ((Finset.univ : Finset (Fin 64)).filter (fun t => t.val ≤ n)) := by
    ext t
    simp only [Finset.mem_filter, Finset.mem_univ, true_and, Finset.mem_insert]
    constructor
    · intro h
      by_cases h' : t.val ≤ n
      · exact Or.inr h'
      · exact Or.inl (Fin.ext (by show t.val = n + 1; omega))
    · rintro (h | h)
      · rw [h]
      · omega
  have hni : (⟨n + 1, hn⟩ : Fin 64) ∉ (Finset.univ : Finset (Fin 64)).filter (fun t => t.val ≤ n) := by
    simp only [Finset.mem_filter, Finset.mem_univ, true_and]
    show ¬ (n + 1 ≤ n)
    omega
  rw [e, Finset.sum_insert hni, add_comm]

/-! ## The accumulator after each point -/

/-- After grid point n the accumulator holds the sum of the tile terms of the points 0, …, n. -/
theorem acc_upTo (c : Dev nD) (n : ℕ) (hn : n < cfg0.N) :
    accAt0 (F := Ideal) m c n hn = fun _ => upTo m c n := by
  induction n with
  | zero =>
    refine (accAt0_A m c ⟨0, hn⟩ (Nat.zero_mod _) (by show ¬ (0 % 64 = 63); omega)).trans ?_
    rw [sout0_A_0_eq, step_point m c ⟨0, hn⟩, reset_apply, zero_add, upTo_zero]
  | succ n ih =>
    have hN : n + 1 < 64 := lt_of_lt_of_eq hn N64
    have h0 : ¬ (n + 1) % 64 = 0 := by omega
    have ih' := ih (Nat.lt_of_succ_lt hn)
    by_cases h1 : (n + 1) % 64 = 63
    · refine (accAt0_C m c ⟨n + 1, hn⟩ h0 h1).trans ?_
      rw [sout0_C_0_eq, step_point m c ⟨n + 1, hn⟩, upTo_succ m c n hN]
      show (fun _ => accAt0 m c n _ (ix2 (0 : Fin 1) (0 : Fin 1)) + _) = _
      rw [ih']
    · refine (accAt0_B m c ⟨n + 1, hn⟩ h0 h1).trans ?_
      rw [sout0_B_0_eq, step_point m c ⟨n + 1, hn⟩, upTo_succ m c n hN]
      show (fun _ => accAt0 m c n _ (ix2 (0 : Fin 1) (0 : Fin 1)) + _) = _
      rw [ih']

/-- After the last grid point the accumulator holds the sum of all 64 tile terms. -/
theorem acc_final (c : Dev nD) :
    accAt0 (F := Ideal) m c 63 (by rw [N64]; omega) = fun _ => total m c := by
  rw [acc_upTo, upTo_last]

end Cert.KernelIdeal.KernelValue

end
-- ==== Proof.KernelValue.Final.lean ====
/-
  From the accumulator after the last grid point to the run of the whole program.

  Suppose the accumulator after grid point 63 holds the total of the 64 tile terms. At that point
  the same value is stored into the 1 x 1 output block, and that is the only point at which the
  block is written back; block 63 is the whole 1 x 1 array, so the array ends holding the total.
  After the region the array is reshaped to a scalar and divided by the constant 2^24: the scalar
  result is the total over 2^24, which is the specification's value of the kernel. The two
  argument arrays are windows' arrays that no write-back touches, so they end as they began.
-/
import proofs.«104481_j69131793596443_1_alg».proof.Proof.KernelValue.Total
import proofs.«104481_j69131793596443_1_alg».proof.Proof.FrameKI.PieceEq
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KernelValue

open Idealize.ShloMosaic Idealize.ShloMosaic.TcCoe Idealize.SL.Sem
open Idealize.ShloMosaic.Pipeline (Dat)
open Cert.KernelIdeal Cert.KernelIdeal.Gen Cert.KernelIdeal.Hand

variable (m : (ℓ : Loc nD τ sig) → Buf (Elt Ideal) ℓ)

/-- The accumulator after the last grid point holds the total. -/
abbrev AccLast (c : Dev nD) : Prop :=
  accAt0 (F := Ideal) m c 63 (by rw [N64]; omega) = fun _ => total m c

/-- The one write-back, at grid point 63, writes the total: what the last case stores into the
    output block is the same step that it leaves in the accumulator. -/
theorem flushed_eq (c : Dev nD) (hacc : AccLast m c) (t : Fin cfg0.N) (hf : (cfg0.win 4).flush t = true) :
    (dats (F := Ideal) m 0 c).flushed 4 t = ((cfg0.win 4).blk t).view.read (Elt Ideal) (fun _ => total m c) := by
  have hN : cfg0.N = 64 := N64
  have h1 : t.val % 64 = 63 := (flush0_4 t).mp hf
  have h0 : ¬t.val % 64 = 0 := by omega
  show (cfg0.win 4).cut (grid0.coords t) ((dats (F := Ideal) m 0 c).after 4 t) = _
  rw [after0_4, outAt0_C m c t h0 h1, out0_C_4_eq]
  have hstep : step (grid0.coords t) (iblk m c 0 t) (iblk m c 1 t) (iblk m c 2 t) (iblk m c 3 t)
      (accAt0 m c (t.val - 1) (Nat.lt_of_le_of_lt (Nat.sub_le _ _) t.isLt)) = fun _ => total m c := by
    rw [← sout0_C_0_eq c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) ((hcond0_1 t).mpr h1),
      ← accAt0_C m c t h0 h1]
    obtain ⟨n, hn⟩ := t
    obtain rfl : n = 63 := by dsimp only at h1; omega
    exact hacc
  rw [hstep]
  funext j
  rfl

/-- Grid point 63, the last, is a point of the grid. -/
theorem point63_lt : 63 < grid0.N := by decide

/-- So the 1 x 1 result array ends holding the total: block 63 is the whole array. -/
theorem result_arr (c : Dev nD) (hacc : AccLast m c) :
    (dats (F := Ideal) m 0 c).arrAt 4 cfg0.N = fun _ => total m c :=
  (dats (F := Ideal) m 0 c).arrAt_eq_of_cover 4 (fun _ => total m c) (flushed_eq m c hacc) fun i => by
    refine ⟨⟨63, point63_lt⟩, (flush0_4 _).mpr rfl, ?_⟩
    show i ∈ ((View.whole main_call0_v0).slice (win0_4.rect ⟨63, point63_lt⟩)).set
    rw [View.set_slice_whole, Rect.mem_set_unit]
    intro a
    have hi0 : (i 0 : Nat) < 1 := (i 0).isLt
    have hi1 : (i 1 : Nat) < 1 := (i 1).isLt
    match a with
    | ⟨0, _⟩ =>
      show win0_4.index ⟨63, point63_lt⟩ 0 * win0_4.size 0 ≤ (i 0 : Nat)
        ∧ (i 0 : Nat) < win0_4.index ⟨63, point63_lt⟩ 0 * win0_4.size 0 + win0_4.xsize (grid0.coords ⟨63, point63_lt⟩) 0
      rw [show win0_4.index ⟨63, point63_lt⟩ 0 * win0_4.size 0 = 0 from by decide +kernel,
        show win0_4.xsize (grid0.coords ⟨63, point63_lt⟩) 0 = 1 from by decide +kernel]
      omega
    | ⟨1, _⟩ =>
      show win0_4.index ⟨63, point63_lt⟩ 1 * win0_4.size 1 ≤ (i 1 : Nat)
        ∧ (i 1 : Nat) < win0_4.index ⟨63, point63_lt⟩ 1 * win0_4.size 1 + win0_4.xsize (grid0.coords ⟨63, point63_lt⟩) 1
      rw [show win0_4.index ⟨63, point63_lt⟩ 1 * win0_4.size 1 = 0 from by decide +kernel,
        show win0_4.xsize (grid0.coords ⟨63, point63_lt⟩) 1 = 1 from by decide +kernel]
      omega

/-- The word `0x4B800000` is 2 ^ 24, the number of entries of a 4096 x 4096 matrix. -/
theorem cnt_f32 : Ideal.ofBits .f32 0x4B800000#32 = ((16777216 : ℝ) : EReal) := by
  simp [Ideal.ofBits, Ideal.ieee, -EReal.coe_mul]; norm_num

/-- After the three host operations the scalar result is the total divided by 2 ^ 24: the reshape
    of a constant 1 x 1 array is that constant, and the divisor's word is 2 ^ 24. -/
theorem afterT_v1 (c : Dev nD) (hacc : AccLast m c) :
    afterT (F := Ideal) m c main_v1 = fun _ => Cert.Spec.kernelValue (xArr m c) (yArr m c) := by
  unfold afterT
  simp only [opss, hostOps1, hostOps1_1, List.flatten_cons, List.flatten_nil, List.append_nil, List.cons_append, List.nil_append]
  after_results
  have hW : Pipeline.withArrays win3 c (V0 m c) (A3 m c cfg0.N) (Proc.devRef .tc main_call0_v0) = (fun _ => total m c) :=
    (Pipeline.withArrays_arr win3 win3_inj c (V0 m c) (A3 m c cfg0.N) 2).trans (result_arr m c hacc)
  funext j
  show Ideal.div (shapeCast S_ (Pipeline.withArrays win3 c (V0 m c) (A3 m c cfg0.N) (Proc.devRef .tc main_call0_v0)) shapeCasts_S1x1_S_ j)
    (Ideal.ofBits .f32 0x4B800000#32) = _
  rw [hW, cnt_f32]
  rfl

/-- The run of the whole program: it terminates with the quotient of the total by 2 ^ 24 in the
    result buffer and the two argument arrays as it found them. -/
theorem kernel_run (ρ : Dev nD → PrngReg) (hacc : ∀ c, AccLast m c) :
    θ_run (defs (F := Ideal)) (onTc (τ := τ) (main (F := Ideal))) ⟨m, fun _ => 0, ρ⟩ (fun r => ∀ c : Dev nD,
      r.2.mem ((c.tc : Thread nD τ).loc main_v1) = (fun _ => Cert.Spec.kernelValue (xArr m c) (yArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v1 (Pipeline.mem_restRefs_of main_v1 rfl (by decide))).trans (afterT_v1 m c (hacc c)),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c)))⟩) (run_main m ρ)

end Cert.KernelIdeal.KernelValue

end
-- ==== Proof.RefValue.lean ====
/-
  The reference's value: what the host program's run leaves in its result buffer, as the
  specification's `referenceValue` of the two argument arrays.
-/
import proofs.«104481_j69131793596443_1_alg».proof.Proof.Gen.ReferenceIdeal.Run
import proofs.«104481_j69131793596443_1_alg».proof.Proof.Gen.ReferenceIdeal.Read
import proofs.«104481_j69131793596443_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Read Cert.Spec
open scoped BigOperators

/-- An argument array as the host program's buffers type it: 4096 rows of 512 extended reals. -/
abbrev Arg : Type := (⟨S4096x512, .f32⟩ : BufTy).Contents (Elt Ideal)

/-! ## The literals -/

/-- The word `0x40000000` is the real number two. -/
theorem ofBits_two : Ideal.ofBits .f32 0x40000000#32 = ((2 : ℝ) : EReal) := by
  simp [Ideal.ofBits, Ideal.ieee, -EReal.coe_mul]; norm_num

/-- The word `0x4B800000` is `2 ^ 24`, the number of entries of a 4096 x 4096 matrix. -/
theorem ofBits_cnt : Ideal.ofBits .f32 0x4B800000#32 = ((16777216 : ℝ) : EReal) := by
  simp [Ideal.ofBits, Ideal.ieee, -EReal.coe_mul]; norm_num

/-! ## Gram entries

The product of an array with a transposed array, read at row `r` and column `c`, is the sum over
the 512 columns `k` of the left array at `(r, k)` times the right array at `(c, k)`. The program
takes this product four times, of `x` with `y` twice, of `x` with itself and of `y` with itself:
all four are one function of two arrays. -/

theorem gram_entry (x0 x1 : Arg) (r c : Fin 4096) :
    val_main_v1 (F := Ideal) x0 x1 (ix2 r c) = gram x0 x1 r c := by
  rw [val_main_v1_apply]
  unfold gram
  refine Finset.sum_congr rfl fun k _ => ?_
  rw [val_main_v0_apply]
  have el : lidx_main_v1 (ix2 r c) k = ix2 r k :=
    funext fun a => Fin.ext (by match a with | ⟨0, _⟩ => rfl | ⟨1, _⟩ => rfl)
  have er : idx_main_v0 (ridx_main_v1 (ix2 r c) k) = ix2 c k :=
    funext fun a => Fin.ext (by match a with | ⟨0, _⟩ => rfl | ⟨1, _⟩ => rfl)
  rw [el, er]

theorem v22_eq (x0 : Arg) : val_main_v22 (F := Ideal) x0 = val_main_v1 (F := Ideal) x0 x0 := rfl
theorem v40_eq (x1 : Arg) : val_main_v40 (F := Ideal) x1 = val_main_v1 (F := Ideal) x1 x1 := rfl
theorem v58_eq (x0 x1 : Arg) : val_main_v58 (F := Ideal) x0 x1 = val_main_v1 (F := Ideal) x0 x1 := rfl

/-! ## Squared row norms

The sum of squares along a row starts from zero, so it is the sum over the 512 columns of the entry
times itself. The program takes it six times, four times of `x` and twice of `y`: one function of
one array. -/

theorem nrm_entry (x0 : Arg) (r : Fin 4096) :
    val_main_v13 (F := Ideal) x0 (ix1 r) = nrm x0 r := by
  rw [val_main_v13_apply, val_main_cst_1_apply, Ideal.ofBits_def, Ideal.ofBits_zero_f32, zero_add]
  unfold nrm
  refine Finset.sum_congr rfl fun k _ => ?_
  have e : idx_main_v13 (ix1 r) k = ix2 r k :=
    funext fun a => Fin.ext (by match a with | ⟨0, _⟩ => rfl | ⟨1, _⟩ => rfl)
  rw [val_main_v12_apply, e, Ideal.mulf_def]

theorem v15_eq (x0 : Arg) : val_main_v15 (F := Ideal) x0 = val_main_v13 (F := Ideal) x0 := rfl
theorem v31_eq (x1 : Arg) : val_main_v31 (F := Ideal) x1 = val_main_v13 (F := Ideal) x1 := rfl
theorem v33_eq (x1 : Arg) : val_main_v33 (F := Ideal) x1 = val_main_v13 (F := Ideal) x1 := rfl
theorem v49_eq (x0 : Arg) : val_main_v49 (F := Ideal) x0 = val_main_v13 (F := Ideal) x0 := rfl
theorem v51_eq (x1 : Arg) : val_main_v51 (F := Ideal) x1 = val_main_v13 (F := Ideal) x1 := rfl

/-! ## The identity matrix

Row and column numbers are below `4096`, so as 32-bit words they are equal exactly when the numbers
are; the comparison's bit, read as a number, is the identity matrix's entry. -/

theorem word_eq_iff (r c : Fin 4096) : BitVec.ofNat 32 r.val = BitVec.ofNat 32 c.val ↔ r.val = c.val := by
  constructor
  · intro h
    have h' := congrArg BitVec.toNat h
    simp only [BitVec.toNat_ofNat] at h'
    have := r.isLt; have := c.isLt
    omega
  · intro h; rw [h]

theorem delta_entry (r c : Fin 4096) : val_main_v7 (F := Ideal) (ix2 r c) = delta r c := by
  rw [val_main_v7_apply, val_main_v6_apply, val_main_v5_apply, val_main_v2_apply, val_main_v3_apply,
    val_main_v4_apply, val_main_c_apply]
  show (((IntOp.cmpi .eq (IntOp.addi (BitVec.ofNat 32 r.val) 0#32) (BitVec.ofNat 32 c.val)).toNat : ℝ) : EReal) = _
  unfold delta
  have h0 : IntOp.addi (BitVec.ofNat 32 r.val) 0#32 = BitVec.ofNat 32 r.val := by
    unfold IntOp.addi; exact BitVec.add_zero _
  rw [h0]
  unfold IntOp.cmpi
  by_cases h : r.val = c.val
  · rw [if_pos h, show (BitVec.ofNat 32 r.val == BitVec.ofNat 32 c.val) = true from
      beq_iff_eq.mpr ((word_eq_iff r c).mpr h)]
    simp
  · rw [if_neg h, show (BitVec.ofNat 32 r.val == BitVec.ofNat 32 c.val) = false from
      beq_eq_false_iff_ne.mpr fun e => h ((word_eq_iff r c).mp e)]
    simp

/-- The squared orthogonality residual. -/
theorem orth_entry (x0 x1 : Arg) (r c : Fin 4096) :
    val_main_v9 (F := Ideal) x0 x1 (ix2 r c) = orth x0 x1 r c := by
  rw [val_main_v9_apply, val_main_v8_apply, gram_entry, delta_entry]
  rfl

/-! ## The Gaussian kernel

At row `r` and column `c` the program adds the squared norm of the left array's row `r` to that of
the right array's row `c`, takes away twice the Gram entry, clamps at zero, negates and exponentiates.
It does so three times, for `(x, x)`, `(y, y)` and `(x, y)`: one function of two arrays. -/

theorem gauss_entry (x0 x1 : Arg) (r c : Fin 4096) :
    val_main_v65 (F := Ideal) x0 x1 (ix2 r c) = gauss x0 x1 r c := by
  rw [val_main_v65_apply, val_main_v64_apply, val_main_v63_apply, val_main_v61_apply, val_main_v62_apply,
    val_main_v56_apply, val_main_v60_apply, val_main_v54_apply, val_main_v55_apply, val_main_v52_apply,
    val_main_v53_apply, val_main_v59_apply, val_main_cst_11_apply, val_main_cst_12_apply]
  have e1 : idx_main_v52 (idx_main_v54 (ix2 r c)) = ix1 r :=
    funext fun a => Fin.ext (by match a with | ⟨0, _⟩ => rfl)
  have e2 : idx_main_v53 (idx_main_v55 (ix2 r c)) = ix1 c :=
    funext fun a => Fin.ext (by match a with | ⟨0, _⟩ => rfl)
  rw [e1, e2, v49_eq, v51_eq, v58_eq, nrm_entry, nrm_entry, gram_entry]
  simp only [Ideal.hostUnary_exp_def, Ideal.hostNegf_def, Ideal.negf_def, Ideal.maximumf_def, Ideal.subf_def,
    Ideal.addf_def, Ideal.mulf_def, Ideal.ofBits_def, Ideal.ofBits_zero_f32, ofBits_two]
  rfl

theorem v29_eq (x0 : Arg) : val_main_v29 (F := Ideal) x0 = val_main_v65 (F := Ideal) x0 x0 := rfl
theorem v47_eq (x1 : Arg) : val_main_v47 (F := Ideal) x1 = val_main_v65 (F := Ideal) x1 x1 := rfl

/-! ## The four means and the result

A sum over every index of a 4096 x 4096 array is the double sum over rows and columns; each of the
four sums starts from zero and is divided by the number of entries. -/

theorem total_of_entries (v : S4096x4096.Idx → EReal) (f : Fin 4096 → Fin 4096 → EReal)
    (h : ∀ r c, v (ix2 r c) = f r c) : ∑ j : S4096x4096.Idx, v j = total f := by
  rw [sum_idx2]
  unfold total
  exact Finset.sum_congr rfl fun r _ => Finset.sum_congr rfl fun c _ => h r c

/-- The mean of the orthogonality residual. -/
theorem mean_orth (x0 x1 : Arg) (i : S_.Idx) :
    val_main_v11 (F := Ideal) x0 x1 i = Ideal.div (total (orth x0 x1)) ((cnt : ℝ) : EReal) := by
  rw [val_main_v11_apply, val_main_v10_apply, val_main_cst_apply, val_main_cst_0_apply, Ideal.hostDivf_def,
    Ideal.ofBits_def, Ideal.ofBits_def, Ideal.ofBits_zero_f32, zero_add, ofBits_cnt,
    total_of_entries _ _ (orth_entry x0 x1)]

/-- The mean of the Gaussian kernel of `x` with itself. -/
theorem mean_gauss_xx (x0 : Arg) (i : S_.Idx) :
    val_main_v67 (F := Ideal) x0 i = Ideal.div (total (gauss x0 x0)) ((cnt : ℝ) : EReal) := by
  rw [val_main_v67_apply, val_main_v66_apply, val_main_cst_13_apply, val_main_cst_14_apply, Ideal.hostDivf_def,
    Ideal.ofBits_def, Ideal.ofBits_def, Ideal.ofBits_zero_f32, zero_add, ofBits_cnt, v29_eq,
    total_of_entries _ _ (gauss_entry x0 x0)]

/-- The mean of the Gaussian kernel of `x` with `y`. -/
theorem mean_gauss_xy (x0 x1 : Arg) (i : S_.Idx) :
    val_main_v69 (F := Ideal) x0 x1 i = Ideal.div (total (gauss x0 x1)) ((cnt : ℝ) : EReal) := by
  rw [val_main_v69_apply, val_main_v68_apply, val_main_cst_15_apply, val_main_cst_16_apply, Ideal.hostDivf_def,
    Ideal.ofBits_def, Ideal.ofBits_def, Ideal.ofBits_zero_f32, zero_add, ofBits_cnt,
    total_of_entries _ _ (gauss_entry x0 x1)]

/-- The mean of the Gaussian kernel of `y` with itself. -/
theorem mean_gauss_yy (x1 : Arg) (i : S_.Idx) :
    val_main_v73 (F := Ideal) x1 i = Ideal.div (total (gauss x1 x1)) ((cnt : ℝ) : EReal) := by
  rw [val_main_v73_apply, val_main_v72_apply, val_main_cst_18_apply, val_main_cst_19_apply, Ideal.hostDivf_def,
    Ideal.ofBits_def, Ideal.ofBits_def, Ideal.ofBits_zero_f32, zero_add, ofBits_cnt, v47_eq,
    total_of_entries _ _ (gauss_entry x1 x1)]

/-- The program's last stage is the specification's reference value, at its one index. -/
theorem result_eq (x0 x1 : Arg) :
    val_main_v75 (F := Ideal) x0 x1 = fun _ => referenceValue x0 x1 := by
  funext i
  rw [val_main_v75_apply, val_main_v74_apply, val_main_v71_apply, val_main_v70_apply, val_main_cst_17_apply,
    mean_orth, mean_gauss_xx, mean_gauss_xy, mean_gauss_yy, Ideal.ofBits_def, ofBits_two]
  rfl

/-- The run's own result term is the specification's reference value of the two argument buffers. -/
theorem res_eq (m : (ℓ : Loc nD τ sig) → Buf (Elt Ideal) ℓ) (c : Dev nD) :
    Cert.ReferenceIdeal.Value.res_main_v75 m c
      = fun _ => referenceValue (m ((c.tc : Thread nD τ).loc main_arg0))
          (m ((c.tc : Thread nD τ).loc main_arg1)) := by
  rw [val_main_v75_eq]
  exact result_eq _ _

/-- The same, for the result's name by its position among the values the program returns. -/
theorem res_out0_eq (m : (ℓ : Loc nD τ sig) → Buf (Elt Ideal) ℓ) (c : Dev nD) :
    Cert.ReferenceIdeal.Value.res_out0 m c
      = fun _ => referenceValue (m ((c.tc : Thread nD τ).loc main_arg0))
          (m ((c.tc : Thread nD τ).loc main_arg1)) :=
  res_eq m c

end Cert.ReferenceIdeal.RefValue

end
-- ==== Proof.Algebra.lean ====
/-
  The algebraic law of the certificate: for arrays of real numbers the tiled, once-divided value of
  the kernel equals the reference's combination of four separately taken means.

  Every quantity of the specification is, on real inputs, the coercion of a real number built by
  the same formula over the reals.  In the reals the sum over all 4096 x 4096 entries is the sum
  over the 8 x 8 grid of the 512 x 512 tile sums, a finite sum distributes over the tile terms, and
  a product with the reciprocal of the count distributes over the sum.
-/
import proofs.«104481_j69131793596443_1_alg».proof.Proof.Spec
import Mathlib.Data.EReal.Basic
import Mathlib.Data.EReal.Operations
import Mathlib.Order.MinMax
import Mathlib.Data.Fintype.BigOperators
import Mathlib.Algebra.BigOperators.Ring.Finset
import Mathlib.Algebra.BigOperators.Group.Finset.Basic
import Mathlib.Algebra.BigOperators.Group.Finset.Sigma
import Mathlib.Analysis.SpecialFunctions.Exp
import Mathlib.Tactic.Ring

noncomputable section

open scoped BigOperators

namespace Cert.Spec

open Idealize.ShloMosaic Idealize.ShloMosaic.ValueIdx

/-! ### The coercion of the reals and finite sums -/

/-- The coercion of the reals into the extended reals commutes with finite sums. -/
theorem coe_sum {ι : Type*} (s : Finset ι) (f : ι → ℝ) :
    (∑ k ∈ s, ((f k : ℝ) : EReal)) = ((∑ k ∈ s, f k : ℝ) : EReal) := by
  induction s using Finset.cons_induction with
  | empty => simp
  | cons a s ha ih => rw [Finset.sum_cons, Finset.sum_cons, ih, EReal.coe_add]

/-- The coercion of the reals commutes with the maximum with zero. -/
theorem coe_max_zero (x : ℝ) : max (x : EReal) 0 = ((max x 0 : ℝ) : EReal) := by
  rw [EReal.coe_strictMono.monotone.map_max, EReal.coe_zero]

/-! ### Real arrays and the real counterparts of the specification's quantities -/

/-- An array of real numbers, of the shape of an argument. -/
abbrev RArr : Type := (⟨2, ![4096, 512]⟩ : Shape).Idx → ℝ

/-- A real array read as an array of extended reals. -/
def up (a : RArr) : Arr := fun i => ((a i : ℝ) : EReal)

/-- An array all of whose entries are real is the reading of a real array. -/
theorem Finite.exists_up {A : Arr} (h : Finite A) : ∃ a : RArr, A = up a := by
  choose a ha using h
  exact ⟨a, funext ha⟩

/-- Squared norm of row r, over the reals. -/
def nrmR (a : RArr) (r : Fin 4096) : ℝ := ∑ k : Fin 512, a (ix2 r k) * a (ix2 r k)

/-- Entry (r, c) of the Gram matrix, over the reals. -/
def gramR (a b : RArr) (r c : Fin 4096) : ℝ := ∑ k : Fin 512, a (ix2 r k) * b (ix2 c k)

/-- Clamped squared distance, over the reals. -/
def distR (a b : RArr) (r c : Fin 4096) : ℝ :=
  max (nrmR a r + nrmR b c - 2 * gramR a b r c) 0

/-- The Gaussian kernel, over the reals. -/
def gaussR (a b : RArr) (r c : Fin 4096) : ℝ := Real.exp (- distR a b r c)

/-- The identity matrix, over the reals. -/
def deltaR (r c : Fin 4096) : ℝ := if r.val = c.val then 1 else 0

/-- The squared orthogonality residual, over the reals. -/
def orthR (a b : RArr) (r c : Fin 4096) : ℝ :=
  (gramR a b r c - deltaR r c) * (gramR a b r c - deltaR r c)

/-- The sum of all entries of a real matrix. -/
def totalR (f : Fin 4096 → Fin 4096 → ℝ) : ℝ := ∑ r : Fin 4096, ∑ c : Fin 4096, f r c

/-- The sum of the entries of tile (i, j) of a real matrix. -/
def tileR (f : Fin 4096 → Fin 4096 → ℝ) (i j : Fin 8) : ℝ :=
  ∑ p : Fin 512, ∑ q : Fin 512, f (tileIx i p) (tileIx j q)

/-! ### Each quantity of the specification, on real arrays, is the coercion of its counterpart -/

theorem nrm_up (a : RArr) (r : Fin 4096) : nrm (up a) r = ((nrmR a r : ℝ) : EReal) := by
  unfold nrm nrmR up
  rw [← coe_sum]
  exact Finset.sum_congr rfl fun k _ => (EReal.coe_mul _ _).symm

theorem gram_up (a b : RArr) (r c : Fin 4096) :
    gram (up a) (up b) r c = ((gramR a b r c : ℝ) : EReal) := by
  unfold gram gramR up
  rw [← coe_sum]
  exact Finset.sum_congr rfl fun k _ => (EReal.coe_mul _ _).symm

theorem dist_up (a b : RArr) (r c : Fin 4096) :
    dist (up a) (up b) r c = ((distR a b r c : ℝ) : EReal) := by
  unfold dist distR
  rw [nrm_up, nrm_up, gram_up, ← EReal.coe_add, ← EReal.coe_mul, ← EReal.coe_sub, coe_max_zero]

theorem gauss_up (a b : RArr) :
    gauss (up a) (up b) = fun r c => ((gaussR a b r c : ℝ) : EReal) := by
  funext r c
  unfold gauss gaussR
  rw [dist_up, ← EReal.coe_neg, Ideal.exp_coe]

theorem delta_coe (r c : Fin 4096) : delta r c = ((deltaR r c : ℝ) : EReal) := rfl

theorem orth_up (a b : RArr) :
    orth (up a) (up b) = fun r c => ((orthR a b r c : ℝ) : EReal) := by
  funext r c
  unfold orth orthR
  rw [gram_up, delta_coe, ← EReal.coe_sub, ← EReal.coe_mul]

theorem total_coe (f : Fin 4096 → Fin 4096 → ℝ) :
    total (fun r c => ((f r c : ℝ) : EReal)) = ((totalR f : ℝ) : EReal) := by
  unfold total totalR
  rw [← coe_sum]
  exact Finset.sum_congr rfl fun r _ => coe_sum _ _

theorem tile_coe (f : Fin 4096 → Fin 4096 → ℝ) (i j : Fin 8) :
    tile (fun r c => ((f r c : ℝ) : EReal)) i j = ((tileR f i j : ℝ) : EReal) := by
  unfold tile tileR
  rw [← coe_sum]
  exact Finset.sum_congr rfl fun p _ => coe_sum _ _

/-! ### The sum over all entries is the sum over the grid of the tile sums -/

/-- A row of the whole matrix is a tile-row and a row inside it. -/
def rowEquiv : Fin 8 × Fin 512 ≃ Fin 4096 where
  toFun x := tileIx x.1 x.2
  invFun r := (⟨r.val / 512, by omega⟩, ⟨r.val % 512, by omega⟩)
  left_inv := by
    rintro ⟨i, p⟩
    refine Prod.ext (Fin.ext ?_) (Fin.ext ?_)
    · show (512 * i.val + p.val) / 512 = i.val
      omega
    · show (512 * i.val + p.val) % 512 = p.val
      omega
  right_inv := by
    intro r
    refine Fin.ext ?_
    show 512 * (r.val / 512) + r.val % 512 = r.val
    omega

/-- A grid point is a tile-row and a tile-column. -/
def gridEquiv : Fin 64 ≃ Fin 8 × Fin 8 where
  toFun t := (tileRow t, tileCol t)
  invFun x := ⟨8 * x.1.val + x.2.val, by omega⟩
  left_inv := by
    intro t
    refine Fin.ext ?_
    show 8 * (t.val / 8) + t.val % 8 = t.val
    omega
  right_inv := by
    rintro ⟨i, j⟩
    refine Prod.ext (Fin.ext ?_) (Fin.ext ?_)
    · show (8 * i.val + j.val) / 8 = i.val
      omega
    · show (8 * i.val + j.val) % 8 = j.val
      omega

/-- A sum over the rows, tile-row by tile-row. -/
theorem sum_rows (g : Fin 4096 → ℝ) :
    ∑ r : Fin 4096, g r = ∑ i : Fin 8, ∑ p : Fin 512, g (tileIx i p) := by
  rw [← Equiv.sum_comp rowEquiv g, Fintype.sum_prod_type]
  rfl

/-- The sum of all entries is the sum over the grid of the tile sums. -/
theorem totalR_eq_sum_tileR (f : Fin 4096 → Fin 4096 → ℝ) :
    totalR f = ∑ t : Fin 64, tileR f (tileRow t) (tileCol t) := by
  have h1 : totalR f = ∑ i : Fin 8, ∑ j : Fin 8, tileR f i j := by
    unfold totalR tileR
    rw [sum_rows]
    refine Finset.sum_congr rfl fun i _ => ?_
    calc ∑ p : Fin 512, ∑ c : Fin 4096, f (tileIx i p) c
        = ∑ p : Fin 512, ∑ j : Fin 8, ∑ q : Fin 512, f (tileIx i p) (tileIx j q) :=
          Finset.sum_congr rfl fun p _ => sum_rows _
      _ = ∑ j : Fin 8, ∑ p : Fin 512, ∑ q : Fin 512, f (tileIx i p) (tileIx j q) :=
          Finset.sum_comm
  rw [h1, ← Fintype.sum_prod_type' (fun i j : Fin 8 => tileR f i j)]
  exact (Equiv.sum_comp gridEquiv (fun x : Fin 8 × Fin 8 => tileR f x.1 x.2)).symm

/-! ### The two values over the reals, and the law -/

/-- What the kernel adds at tile (i, j), over the reals. -/
def tileTermR (a b : RArr) (i j : Fin 8) : ℝ :=
  ((tileR (gaussR a a) i j + tileR (gaussR b b) i j) - 2 * tileR (gaussR a b) i j)
    + tileR (orthR a b) i j

/-- The kernel's value over the reals. -/
def kernelR (a b : RArr) : ℝ :=
  (∑ t : Fin 64, tileTermR a b (tileRow t) (tileCol t)) * (1 / cnt)

/-- The reference's value over the reals. -/
def referenceR (a b : RArr) : ℝ :=
  totalR (orthR a b) * (1 / cnt)
    + ((totalR (gaussR a a) * (1 / cnt) - 2 * (totalR (gaussR a b) * (1 / cnt)))
        + totalR (gaussR b b) * (1 / cnt))

theorem cnt_ne_zero : (cnt : ℝ) ≠ 0 := by
  unfold cnt
  norm_num

theorem tileTerm_up (a b : RArr) (i j : Fin 8) :
    tileTerm (up a) (up b) i j = ((tileTermR a b i j : ℝ) : EReal) := by
  unfold tileTerm tileTermR
  rw [gauss_up, gauss_up, gauss_up, orth_up, tile_coe, tile_coe, tile_coe, tile_coe,
    ← EReal.coe_add, ← EReal.coe_mul, ← EReal.coe_sub, ← EReal.coe_add]

theorem kernelValue_up (a b : RArr) :
    kernelValue (up a) (up b) = ((kernelR a b : ℝ) : EReal) := by
  have hs : (∑ t : Fin 64, tileTerm (up a) (up b) (tileRow t) (tileCol t))
      = ((∑ t : Fin 64, tileTermR a b (tileRow t) (tileCol t) : ℝ) : EReal) :=
    (Finset.sum_congr rfl fun t _ => tileTerm_up a b _ _).trans (coe_sum _ _)
  unfold kernelValue kernelR
  rw [hs, Ideal.div_coe cnt_ne_zero, ← EReal.coe_mul]

theorem referenceValue_up (a b : RArr) :
    referenceValue (up a) (up b) = ((referenceR a b : ℝ) : EReal) := by
  unfold referenceValue referenceR
  rw [gauss_up, gauss_up, gauss_up, orth_up, total_coe, total_coe, total_coe, total_coe,
    Ideal.div_coe cnt_ne_zero, Ideal.div_coe cnt_ne_zero, Ideal.div_coe cnt_ne_zero,
    Ideal.div_coe cnt_ne_zero]
  simp only [← EReal.coe_mul, ← EReal.coe_add, ← EReal.coe_sub]

/-- Over the reals the tiled, once-scaled sum is the combination of the four scaled totals. -/
theorem kernelR_eq_referenceR (a b : RArr) : kernelR a b = referenceR a b := by
  unfold kernelR referenceR tileTermR
  rw [totalR_eq_sum_tileR (orthR a b), totalR_eq_sum_tileR (gaussR a a),
    totalR_eq_sum_tileR (gaussR a b), totalR_eq_sum_tileR (gaussR b b),
    Finset.sum_add_distrib, Finset.sum_sub_distrib, Finset.sum_add_distrib, ← Finset.mul_sum]
  ring

/-- On real inputs the kernel's value is the reference's value. -/
theorem kernelValue_eq_referenceValue (A B : Arr) (hA : Finite A) (hB : Finite B) :
    kernelValue A B = referenceValue A B := by
  obtain ⟨a, rfl⟩ := hA.exists_up
  obtain ⟨b, rfl⟩ := hB.exists_up
  rw [kernelValue_up, referenceValue_up, kernelR_eq_referenceR]

end Cert.Spec

end
-- ==== Proof.FiniteInputs.lean ====
/-
  The precondition read back: if both argument arrays pass the printed test "every entry has
  absolute value below +inf", then every entry of each is a real number.

  The test is, for each array, the conjunction over all entries of the comparison
  max (x i) (- x i) < +inf, and the two conjunctions and-ed.  A conjunction that is 1 has every
  conjunct 1; an extended real whose absolute value is below +inf is neither -inf nor +inf.
-/
import proofs.«104481_j69131793596443_1_alg».proof.Defs
import proofs.«104481_j69131793596443_1_alg».proof.Proof.Gen.Pre_finite_inputs
import proofs.«104481_j69131793596443_1_alg».proof.Proof.Spec
import Idealize.ShloMosaic.Lib.ReduceAll
import Idealize.ShloMosaic.Lib.ValueIdx
import Mathlib.Data.EReal.Basic
import Mathlib.Data.EReal.Operations

noncomputable section

namespace Cert.FiniteInputs

open Idealize.ShloMosaic Cert.Pre_finite_inputs

/-- The shape of a scalar has one index. -/
instance : Subsingleton S_.Idx := ⟨fun a b => funext fun d => d.elim0⟩

/-- The pattern 0x7F800000 denotes +inf. -/
theorem ofBits_inf : Ideal.ofBits .f32 0x7F800000#32 = (⊤ : EReal) := by
  simp [Ideal.ofBits, Ideal.ieee]

/-- A truth value whose one-bit word is 1 is true. -/
theorem ofBool_eq_one {b : Bool} (h : BitVec.ofBool b = 1#1) : b = true := by
  cases b
  · exact absurd h (by decide)
  · rfl

/-- An extended real whose absolute value is below +inf is a real number. -/
theorem real_of_abs_lt_top (x : EReal) (h : max x (-x) < ⊤) : ∃ a : ℝ, x = (a : EReal) := by
  induction x using EReal.rec with
  | bot => simp at h
  | coe a => exact ⟨a, rfl⟩
  | top => simp at h

/-- One entry of the comparison array being 1 says that entry of the argument is real. -/
theorem real_of_entry [Facts] (x : Cert.Spec.Arr) (i : S4096x512.Idx)
    (h : cmpf (F := Ideal) .olt (Host.absf x)
        (broadcastInDim S4096x512 ![] Facts.bcast_S_S4096x512 (constant S_ .f32 0x7F800000#32)) i
      = 1#1) : ∃ a : ℝ, x i = (a : EReal) := by
  have h' : BitVec.ofBool (decide (max (x i) (-(x i)) < Ideal.ofBits .f32 0x7F800000#32)) = 1#1 := h
  have hlt := of_decide_eq_true (ofBool_eq_one h')
  rw [ofBits_inf] at hlt
  exact real_of_abs_lt_top (x i) hlt

/-- Both arrays passing the test, every entry of each is a real number. -/
theorem of_pre [hPre : Cert.Pre_finite_inputs.Facts] (x y : Cert.Spec.Arr)
    (h : Cert.Pre_finite_inputs.fn (F := Ideal) x y = (fun _ => 1#1)) :
    Cert.Spec.Finite x ∧ Cert.Spec.Finite y := by
  have h0 := congrFun h ValueIdx.ix0
  dsimp only [Cert.Pre_finite_inputs.fn] at h0
  obtain ⟨hx, hy⟩ := IntOp.andi_eq_one.1 h0
  exact ⟨fun i => real_of_entry x i (Host.reduce_andi_all _ _ _ _ _ hx i),
    fun i => real_of_entry y i (Host.reduce_andi_all _ _ _ _ _ hy i)⟩

end Cert.FiniteInputs

end
-- ==== Proof.lean ====
/-
  A tiled Gaussian-kernel and orthogonality loss against its plain reference.

  Both programs take two 4096 x 512 matrices x, y and return one number: the mean over all pairs of
  rows of (x_r . y_c - [r = c])^2, plus the mean of exp(-d(x_r, x_c)), minus twice the mean of
  exp(-d(x_r, y_c)), plus the mean of exp(-d(y_r, y_c)), where d(u, v) = max(|u|^2 + |v|^2 - 2 u.v, 0).
  The reference builds the four 4096 x 4096 matrices and takes four means. The kernel walks the 8 x 8
  grid of 512 x 512 tiles, adds each tile's four sums, combined, to a 1 x 1 accumulator (zeroed at the
  first tile), stores the accumulator at the last tile, and the program divides it by 2^24 once.

  At the ideal instance a change of float format is the identity, so the kernel's bf16 matrix products
  are the reference's. With every entry of x and y a real number (the precondition) all quantities are
  real, and in the reals the quotient of the accumulated sum is the combination of the four means.

  The frames: each kernel program's run is a pipeline whose windows 0, 1 share x and windows 2, 3 share
  y; each shared array's share is split between its two windows for the region and joined after it.
  The reference has no kernel: its frame is its run with the result dropped.
-/
import proofs.«104481_j69131793596443_1_alg».proof.Defs
import proofs.«104481_j69131793596443_1_alg».proof.Proof.Gen.Kernel
import proofs.«104481_j69131793596443_1_alg».proof.Proof.Gen.KernelIdeal
import proofs.«104481_j69131793596443_1_alg».proof.Proof.Gen.ReferenceIdeal
import proofs.«104481_j69131793596443_1_alg».proof.Proof.Gen.Pre_finite_inputs
import proofs.«104481_j69131793596443_1_alg».proof.Proof.Gen.ReferenceIdeal.Run
import proofs.«104481_j69131793596443_1_alg».proof.Proof.FrameK.Launch
import proofs.«104481_j69131793596443_1_alg».proof.Proof.FrameKI.Launch
import proofs.«104481_j69131793596443_1_alg».proof.Proof.KernelValue.Acc
import proofs.«104481_j69131793596443_1_alg».proof.Proof.KernelValue.Final
import proofs.«104481_j69131793596443_1_alg».proof.Proof.RefValue
import proofs.«104481_j69131793596443_1_alg».proof.Proof.Algebra
import proofs.«104481_j69131793596443_1_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel program terminates and leaves x and y unchanged. -/
theorem frame_K : Cert.frame_Kernel := fun m ρ _ => Cert.Kernel.Hand.frame m ρ

/-- So does its idealization. -/
theorem frame_KI : Cert.frame_KernelIdeal := fun m ρ _ => Cert.KernelIdeal.Hand.frame m ρ

/-- The reference is a host program: its run, the result dropped. -/
theorem frame_RI : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on x and y, both runs end with the same number: the kernel's accumulated
    tile terms divided by 2^24, the reference's four means combined; equal because x and y are finite. -/
theorem algebraic : Cert.algebraic_KernelIdeal_ReferenceIdeal := by
  intro m ρ m' ρ' hpre hagree
  have hfin := fun c => Cert.FiniteInputs.of_pre _ _ (hpre c)
  refine ⟨fun c => fun _ => Cert.Spec.kernelValue (Cert.KernelIdeal.KernelValue.xArr m c) (Cert.KernelIdeal.KernelValue.yArr m c),
    Cert.KernelIdeal.KernelValue.kernel_run m ρ (fun c => Cert.KernelIdeal.KernelValue.acc_final m c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2]
  exact funext fun _ => (Cert.Spec.kernelValue_eq_referenceValue _ _ (hfin c).1 (hfin c).2).symm

theorem claim : Cert.Claim :=
  ⟨Cert.Kernel.Gen.facts, Cert.KernelIdeal.Gen.facts, Cert.ReferenceIdeal.Gen.facts, Cert.Pre_finite_inputs.Gen.facts,
    frame_K, frame_KI, frame_RI, preserves, algebraic⟩

end Cert.Proof

end
